-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S2x600000 : Shape := ⟨2, ![2, 600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S50000x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S50000x128 .f32 := Host.absf main_arg5
  let main_cst_8 : FVec F S_ .f32 := constant S_ .f32 0x7F800000#32
  let main_v25 : FVec F S50000x128 .f32 := broadcastInDim S50000x128 ![] bcast_S_S50000x128 main_cst_8
  let main_v26 : IVec S50000x128 1 := cmpf .olt main_v24 main_v25
  let main_c_9 : IVec S_ 1 := constantI S_ 1 1#1
  let main_v27 : IVec S_ 1 := (fun x v => Host.reduce IntOp.andi x v reducesTo_S50000x128_S_d0_1 h_S_) main_v26 main_c_9
  let main_v28 : IVec S_ 1 := andi main_v23 main_v27
  main_v28

def fn {F : FTy → Type} [FloatOps F] (main_arg0 : FVec F S50000x128 .f32) (main_arg1 : FVec F S128x128 .f32) (main_arg2 : FVec F S128 .f32) (main_arg3 : FVec F S128 .f32) (main_arg4 : FVec F S128 .f32) (main_arg5 : FVec F S50000x128 .f32) (main_arg6 : IVec S2x600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S50000x128 : Shape := ⟨2, ![50000, 128]⟩
abbrev S128x128 : Shape := ⟨2, ![128, 128]⟩
abbrev S128 : Shape := ⟨1, ![128]⟩
abbrev S2x600000 : Shape := ⟨2, ![2, 600000]⟩
abbrev S1000x128 : Shape := ⟨2, ![1000, 128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 90
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S50000x128, .f32⟩
  | .hbm, ⟨6, _⟩ => ⟨S2x600000, .i32⟩
  | .hbm, ⟨7, _⟩ => ⟨S50000x128, .f32⟩
  | .hbm, ⟨8, _⟩ => ⟨S50000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S1x600000, .i32⟩
  | .hbm, ⟨13, _⟩ => ⟨S600000, .i32⟩
  | .hbm, ⟨14, _⟩ => ⟨S650000, .i32⟩
  | .hbm, ⟨15, _⟩ => ⟨S_, .f32⟩
  | .hbm, ⟨16, _⟩ => ⟨S50000, .f32⟩
  | .hbm, ⟨17, _⟩ => ⟨S_, .i32⟩
  | .hbm, ⟨18, _⟩ => ⟨S650000, .i32⟩
  | .hbm, ⟨19, _⟩ => ⟨S650000, .i1⟩
  | .hbm, ⟨20, _⟩ => ⟨S_, .i32⟩
  | .hbm, ⟨21, _⟩ => ⟨S650000, .i32⟩
  | .hbm, ⟨22, _⟩ => ⟨S650000, .i32⟩
  | .hbm, ⟨23, _⟩ => ⟨S650000, .i32⟩
  | .hbm, ⟨24, _⟩ => ⟨S650000x1, .i32⟩
  | .hbm, ⟨25, _⟩ => ⟨S_, .f32⟩
  | .hbm, ⟨26, _⟩ => ⟨S650000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S_, .i32⟩
  | .hbm, ⟨40, _⟩ => ⟨S650000, .i32⟩
  | .hbm, ⟨41, _⟩ => ⟨S650000, .i1⟩
  | .hbm, ⟨42, _⟩ => ⟨S_, .i32⟩
  | .hbm, ⟨43, _⟩ => ⟨S650000, .i32⟩
  | .hbm, ⟨44, _⟩ => ⟨S650000, .i32⟩
  | .hbm, ⟨45, _⟩ => ⟨S650000, .i32⟩
  | .hbm, ⟨46, _⟩ => ⟨S650000x1, .i32⟩
  | .hbm, ⟨47, _⟩ => ⟨S650000, .f32⟩
  | .hbm, ⟨48, _⟩ => ⟨S_, .i32⟩
  | .hbm, ⟨49, _⟩ => ⟨S650000, .i32⟩
  | .hbm, ⟨50, _⟩ => ⟨S650000, .i1⟩
  | .hbm, ⟨51, _⟩ => ⟨S_, .i32⟩
  | .hbm, ⟨52, _⟩ => ⟨S650000, .i32⟩
  | .hbm, ⟨53, _⟩ => ⟨S650000, .i32⟩
  | .hbm, ⟨54, _⟩ => ⟨S650000, .i32⟩
  | .hbm, ⟨55, _⟩ => ⟨S650000x1, .i32⟩
  | .hbm, ⟨56, _⟩ => ⟨S650000, .f32⟩
  | .hbm, ⟨57, _⟩ => ⟨S650000, .f32⟩
  | .hbm, ⟨58, _⟩ => ⟨S_, .i32⟩
  | .hbm, ⟨59, _⟩ => ⟨S650000, .i32⟩
  | .hbm, ⟨60, _⟩ => ⟨S650000, .i1⟩
  | .hbm, ⟨61, _⟩ => ⟨S_, .i32⟩
  | .hbm, ⟨62, _⟩ => ⟨S650000, .i32⟩
  | .hbm, ⟨63, _⟩ => ⟨S650000, .i32⟩
  | .hbm, ⟨64, _⟩ => ⟨S650000, .i32⟩
  | .hbm, ⟨65, _⟩ => ⟨S650000x1, .i32⟩
  | .hbm, ⟨66, _⟩ => ⟨S650000x128, .f32⟩
  | .hbm, ⟨67, _⟩ => ⟨S650000x1, .f32⟩
  | .hbm, ⟨68, _⟩ => ⟨S650000x128, .f32⟩
  | .hbm, ⟨69, _⟩ => ⟨S650000x128, .f32⟩
  | .hbm, ⟨70, _⟩ => ⟨S_, .f32⟩
  | .hbm, ⟨71, _⟩ => ⟨S50000x128, .f32⟩
  | .hbm, ⟨72, _⟩ => ⟨S650000x1, .i32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S1x128, .f32⟩
  | .hbm, ⟨79, _⟩ => ⟨S_, .f32⟩
  | .hbm, ⟨80, _⟩ => ⟨S1x128, .f32⟩
  | .hbm, ⟨81, _⟩ => ⟨S1x128, .f32⟩
  | .hbm, ⟨82, _⟩ => ⟨S_, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1x128, .f32⟩
  | .local _ .vmem, ⟨8, _⟩ => ⟨S1x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1000x128, .f32⟩
  | .local _ .vmem, ⟨18, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_c_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54_0 : Ref sig .tc := ⟨.hbm, 77, rfl⟩
abbrev main_v54_1 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S_S650000 : S_.BroadcastsInDim S650000 (![] : Fin 0 → Fin S650000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S1x128_S1x128_0_0 : ∀ a, (![0, 0] : Fin 2 → Nat) a + S1x128.size a ≤ S1x128.size a
  h_S1x128 : 0 < S1x128.numel
  shapeCasts_S1000x128_S1000x128 : S1000x128.ShapeCasts S1000x128
  shapeCasts_S1x128_S1x128 : S1x128.ShapeCasts S1x128
  reduces_S1000x128_S128 : S1000x128.Reduces [0] S128
  shapeCasts_S128_S1x128 : S128.ShapeCasts S1x128
  bcast_S_S1x128 : S_.BroadcastsInDim S1x128 (![] : Fin 0 → Fin S1x128.rank)
  broadcasts_S1x128_S1000x128 : S1x128.Broadcasts S1000x128
  natLt_1_32 : 1 < 32
  dot_S1000x128_S128x128_S1000x128_1_0_0_1_n_n_wf : DotDims.WF S1000x128 S128x128 S1000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S50000x128.size a
  hwx2_1 : ∀ i : grid2.Coords, EltTy.bits .f32 = 32 ∨ (Rect.block (s := S50000x128) S1000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x128.size a ≤ S50000x128.size a
  hwx2_6 : ∀ i : grid2.Coords, EltTy.bits .f32 = 32 ∨ (Rect.block (s := S50000x128) S1000x128.size (cc2_transform_6 i) (hinb2_6 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v53) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S1000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 118
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S50000x128, .f32⟩
  | .hbm, ⟨6, _⟩ => ⟨S2x600000, .i32⟩
  | .hbm, ⟨7, _⟩ => ⟨S50000, .i32⟩
  | .hbm, ⟨8, _⟩ => ⟨S1x600000, .i32⟩
  | .hbm, ⟨9, _⟩ => ⟨S600000, .i32⟩
  | .hbm, ⟨10, _⟩ => ⟨S650000, .i32⟩
  | .hbm, ⟨11, _⟩ => ⟨S1x600000, .i32⟩
  | .hbm, ⟨12, _⟩ => ⟨S600000, .i32⟩
  | .hbm, ⟨13, _⟩ => ⟨S650000, .i32⟩
  | .hbm, ⟨14, _⟩ => ⟨S50000x128, .f32⟩
  | .hbm, ⟨15, _⟩ => ⟨S_, .f32⟩
  | .hbm, ⟨16, _⟩ => ⟨S50000, .f32⟩
  | .hbm, ⟨17, _⟩ => ⟨S_, .i32⟩
  | .hbm, ⟨18, _⟩ => ⟨S650000, .i32⟩
  | .hbm, ⟨19, _⟩ => ⟨S650000, .i1⟩
  | .hbm, ⟨20, _⟩ => ⟨S_, .i32⟩
  | .hbm, ⟨21, _⟩ => ⟨S650000, .i32⟩
  | .hbm, ⟨22, _⟩ => ⟨S650000, .i32⟩
  | .hbm, ⟨23, _⟩ => ⟨S650000, .i32⟩
  | .hbm, ⟨24, _⟩ => ⟨S650000x1, .i32⟩
  | .hbm, ⟨25, _⟩ => ⟨S_, .f32⟩
  | .hbm, ⟨26, _⟩ => ⟨S650000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S_, .i32⟩
  | .hbm, ⟨40, _⟩ => ⟨S650000, .i32⟩
  | .hbm, ⟨41, _⟩ => ⟨S650000, .i1⟩
  | .hbm, ⟨42, _⟩ => ⟨S_, .i32⟩
  | .hbm, ⟨43, _⟩ => ⟨S650000, .i32⟩
  | .hbm, ⟨44, _⟩ => ⟨S650000, .i32⟩
  | .hbm, ⟨45, _⟩ => ⟨S650000, .i32⟩
  | .hbm, ⟨46, _⟩ => ⟨S650000x1, .i32⟩
  | .hbm, ⟨47, _⟩ => ⟨S650000, .f32⟩
  | .hbm, ⟨48, _⟩ => ⟨S_, .i32⟩
  | .hbm, ⟨49, _⟩ => ⟨S650000, .i32⟩
  | .hbm, ⟨50, _⟩ => ⟨S650000, .i1⟩
  | .hbm, ⟨51, _⟩ => ⟨S_, .i32⟩
  | .hbm, ⟨52, _⟩ => ⟨S650000, .i32⟩
  | .hbm, ⟨53, _⟩ => ⟨S650000, .i32⟩
  | .hbm, ⟨54, _⟩ => ⟨S650000, .i32⟩
  | .hbm, ⟨55, _⟩ => ⟨S650000x1, .i32⟩
  | .hbm, ⟨56, _⟩ => ⟨S650000, .f32⟩
  | .hbm, ⟨57, _⟩ => ⟨S650000, .f32⟩
  | .hbm, ⟨58, _⟩ => ⟨S_, .i32⟩
  | .hbm, ⟨59, _⟩ => ⟨S650000, .i32⟩
  | .hbm, ⟨60, _⟩ => ⟨S650000, .i1⟩
  | .hbm, ⟨61, _⟩ => ⟨S_, .i32⟩
  | .hbm, ⟨62, _⟩ => ⟨S650000, .i32⟩
  | .hbm, ⟨63, _⟩ => ⟨S650000, .i32⟩
  | .hbm, ⟨64, _⟩ => ⟨S650000, .i32⟩
  | .hbm, ⟨65, _⟩ => ⟨S650000x1, .i32⟩
  | .hbm, ⟨66, _⟩ => ⟨S650000x128, .f32⟩
  | .hbm, ⟨67, _⟩ => ⟨S650000x1, .f32⟩
  | .hbm, ⟨68, _⟩ => ⟨S650000x128, .f32⟩
  | .hbm, ⟨69, _⟩ => ⟨S650000x128, .f32⟩
  | .hbm, ⟨70, _⟩ => ⟨S_, .f32⟩
  | .hbm, ⟨71, _⟩ => ⟨S50000x128, .f32⟩
  | .hbm, ⟨72, _⟩ => ⟨S650000x1, .i32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S128, .f32⟩
  | .hbm, ⟨82, _⟩ => ⟨S_, .f32⟩
  | .hbm, ⟨83, _⟩ => ⟨S128, .f32⟩
  | .hbm, ⟨84, _⟩ => ⟨S128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S_, .f32⟩
  | .hbm, ⟨90, _⟩ => ⟨S128, .f32⟩
  | .hbm, ⟨91, _⟩ => ⟨S_, .f32⟩
  | .hbm, ⟨92, _⟩ => ⟨S128, .f32⟩
  | .hbm, ⟨93, _⟩ => ⟨S128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S128, .f32⟩
  | .hbm, ⟨101, _⟩ => ⟨S1x128, .f32⟩
  | .hbm, ⟨102, _⟩ => ⟨S50000x128, .f32⟩
  | .hbm, ⟨103, _⟩ => ⟨S50000x128, .f32⟩
  | .hbm, ⟨104, _⟩ => ⟨S1x128, .f32⟩
  | .hbm, ⟨105, _⟩ => ⟨S50000x128, .f32⟩
  | .hbm, ⟨106, _⟩ => ⟨S50000x128, .f32⟩
  | .hbm, ⟨107, _⟩ => ⟨S1x128, .f32⟩
  | .hbm, ⟨108, _⟩ => ⟨S50000x128, .f32⟩
  | .hbm, ⟨109, _⟩ => ⟨S50000x128, .f32⟩
  | .hbm, ⟨110, _⟩ => ⟨S_, .f32⟩
  | .hbm, ⟨111, _⟩ => ⟨S50000x128, .f32⟩
  | .hbm, ⟨112, _⟩ => ⟨S50000x128, .i1⟩
  | .hbm, ⟨113, _⟩ => ⟨S50000x128, .f32⟩
  | .hbm, ⟨114, _⟩ => ⟨S50000x128, .f32⟩
  | .hbm, ⟨115, _⟩ => ⟨S_, .f32⟩
  | .hbm, ⟨116, _⟩ => ⟨S50000x128, .f32⟩
  | .hbm, ⟨117, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_c_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_14 : Ref sig .tc := ⟨.hbm, 89, rfl⟩
abbrev main_v62 : Ref sig .tc := ⟨.hbm, 90, rfl⟩
abbrev main_cst_15 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_16 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_18 : Ref sig .tc := ⟨.hbm, 115, rfl⟩
abbrev main_v84 : Ref sig .tc := ⟨.hbm, 116, rfl⟩
abbrev main_v85 : Ref sig .tc := ⟨.hbm, 117, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S_S650000 : S_.BroadcastsInDim S650000 (![] : Fin 0 → Fin S650000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.Spec.lean ====
/-
  The mathematics of a graph-convolution layer followed by ReLU, batch normalisation over the nodes and dropout,
  entry by entry on the extended reals.

  `z` is the layer's pre-activation on the node × feature grid (50000 × 128).  Per feature `q` the batch statistics are
  taken over the nodes of `relu z`: the mean is the column sum over 50000, and the (biased) variance is written in two
  ways — the mean of squares minus the squared mean, and the mean of the squared deviations.  The two agree on real
  values (VarianceLaw.lean).  The output entry is
  `((relu z − mean) · rsqrt (var + ε) · γ + β) · keep(u) · c`, with `keep(u)` one where the dropout draw exceeds the
  drop probability and zero elsewhere.
-/
import Idealize.ShloMosaic.PureOps.Ideal
import Idealize.ShloMosaic.Lib.ValueIdx

noncomputable section

open scoped BigOperators

namespace Cert.GcnNorm

open Idealize.ShloMosaic Idealize.ShloMosaic.ValueIdx

/-- The node × feature grid, a feature vector, and a one-row feature matrix. -/
abbrev NodeFeat : Shape := ⟨2, ![50000, 128]⟩
abbrev Feat : Shape := ⟨1, ![128]⟩
abbrev FeatRow : Shape := ⟨2, ![1, 128]⟩
abbrev Weights : Shape := ⟨2, ![128, 128]⟩

/-- An array on the node × feature grid given entry by entry. -/
def grid (g : Fin 50000 → Fin 128 → EReal) : NodeFeat.Idx → EReal :=
  fun i => g ⟨(i 0).val, idx2_lt0 i⟩ ⟨(i 1).val, idx2_lt1 i⟩

theorem grid_ix2 (g : Fin 50000 → Fin 128 → EReal) (p : Fin 50000) (q : Fin 128) : grid g (ix2 p q) = g p q := rfl

/-- A one-row feature matrix given entry by entry. -/
def row (g : Fin 128 → EReal) : FeatRow.Idx → EReal := fun i => g ⟨(i 1).val, idx2_lt1 i⟩

theorem row_ix2 (g : Fin 128 → EReal) (a : Fin 1) (q : Fin 128) : row g (ix2 a q) = g q := rfl

/-- The product of the node features with the weight matrix at an entry. -/
def matProd (x : NodeFeat.Idx → EReal) (w : Weights.Idx → EReal) (p : Fin 50000) (q : Fin 128) : EReal :=
  ∑ k : Fin 128, x (ix2 p k) * w (ix2 k q)

/-- The word `+0.0`. -/
def zeroWord : EReal := Ideal.ofBits .f32 0x00000000#32

/-- ReLU of the pre-activation at an entry. -/
def relu (z : NodeFeat.Idx → EReal) (p : Fin 50000) (q : Fin 128) : EReal := max (z (ix2 p q)) zeroWord

/-- The sum of a column over the 50000 nodes. -/
def colSum (f : Fin 50000 → Fin 128 → EReal) (q : Fin 128) : EReal := ∑ p : Fin 50000, f p q

/-- The word `50000.0`, the number of nodes. -/
def nodeCount : EReal := Ideal.ofBits .f32 0x47435000#32

/-- The batch mean of feature `q`. -/
def meanOf (z : NodeFeat.Idx → EReal) (q : Fin 128) : EReal := Ideal.div (colSum (relu z) q) nodeCount

/-- The batch variance as the mean of squares minus the squared mean. -/
def varOfSquares (z : NodeFeat.Idx → EReal) (q : Fin 128) : EReal :=
  Ideal.div (colSum (fun p q => relu z p q * relu z p q) q) nodeCount - meanOf z q * meanOf z q

/-- The batch variance as the mean of the squared deviations from the mean. -/
def varOfDeviations (z : NodeFeat.Idx → EReal) (q : Fin 128) : EReal :=
  Ideal.div (colSum (fun p q => (relu z p q - meanOf z q) * (relu z p q - meanOf z q)) q) nodeCount

/-- The dropout mask at a draw `u`: one where `u` exceeds the drop probability `0.1`, zero elsewhere. -/
def keepOf (u : EReal) : EReal :=
  (((FloatOps.cmpf (F := Ideal) (φ := .f32) .ogt u (Ideal.ofBits .f32 0x3DCCCCCD#32)).toNat : ℝ) : EReal)

/-- One output entry from the pre-activation `z`, the draw `u`, the feature's mean and variance, scale and shift. -/
def applyOf (z u mu var g b : EReal) : EReal :=
  ((((max z zeroWord - mu) * Ideal.rsqrt (var + Ideal.ofBits .f32 0x3727C5AC#32)) * g + b) * keepOf u)
    * Ideal.ofBits .f32 0x3F8E38E4#32

/-- The whole output array. -/
def outOf (z u : NodeFeat.Idx → EReal) (mu var : Fin 128 → EReal) (g b : Feat.Idx → EReal) : NodeFeat.Idx → EReal :=
  grid fun p q => applyOf (z (ix2 p q)) (u (ix2 p q)) (mu q) (var q) (g (ix1 q)) (b (ix1 q))

end Cert.GcnNorm

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.KReg0.lean ====
/-
  The first kernel: the product of the node features with the weight matrix, a row block of 1000 nodes per grid point.
  Each point multiplies its block of `x` by the whole weight matrix; the 50 blocks tile the rows, so the array the
  kernel leaves holds, at every entry, the sum over the 128 input features of `x · w`.
-/
import proofs.«178980_j75720273428864_1_alg».proof.Proof.Gen.KernelIdeal.Frame
import proofs.«178980_j75720273428864_1_alg».proof.Proof.Spec
import proofs.«178980_j75720273428864_1_alg».proof.Proof.LibPlainDot
import Idealize.ShloMosaic.Lib.Pipeline.Value
import Idealize.ShloMosaic.PureOps.Ideal.Laws
set_option maxRecDepth 16384

noncomputable section

open scoped BigOperators

namespace Cert.KernelIdeal.Reg0

open Cert.KernelIdeal Cert.KernelIdeal.Gen Cert.GcnNorm
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The zero offsets of an access to a whole buffer, as a constant function. -/
theorem zeroOffsets : (![0, 0] : Fin 2 → Nat) = fun _ => 0 := funext fun a => by fin_cases a <;> rfl

/-- The kernel's product contracts the second axis of the left operand with the first axis of the right one and
    batches nothing: a plain matrix product. -/
theorem plainDims : PlainDot.IsPlain dot_S1000x128_S128x128_S1000x128_1_0_0_1_n_n := ⟨rfl, rfl, rfl, rfl, rfl, rfl⟩

/-- What a point stores at an entry of its block: the sum over the 128 input features of the block's row of `x`
    times the column of `w` (the narrowing of the operands is the identity on the extended reals, and the accumulator
    the product adds onto is zero). -/
theorem pay_apply (x : Vec Ideal S1000x128 .f32) (w : Vec Ideal S128x128 .f32) (p : Fin 1000) (q : Fin 128) :
    k0_pay1 x w (ix2 p q) = ∑ k : Fin 128, x (ix2 p k) * w (ix2 k q) := by
  unfold k0_pay1
  exact PlainDot.matmul_zero_apply plainDims none _ _ p q

/-- The block index maps over the grid: point `t` takes row block `t` of `x` and of the result, and the whole of `w`. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point `t`'s block of `x` is rows `1000 t … 1000 t + 999` of the array. -/
theorem xblk_apply (c : Dev nD) (t : Fin cfg0.N) (p : Fin 1000) (k : Fin 128) (r : Fin 50000)
    (hr : r.val = t.val * 1000 + p.val) :
    (iblk0 (V0 m ρ) c 0 t : Vec Ideal S1000x128 .f32) (ix2 p k)
      = (m ((c.tc : Thread nD τ).loc main_arg0) : NodeFeat.Idx → EReal) (ix2 r k) := by
  obtain ⟨e0, e1, -⟩ := index_facts t
  unfold iblk0
  rw [View.read_apply]
  show (m ((c.tc : Thread nD τ).loc main_arg0) : NodeFeat.Idx → EReal) _ = _
  congr 1
  funext a
  apply Fin.ext
  match a with
  | ⟨0, _⟩ => show win0_0.index t (0 : Fin 2) * 1000 + 1 * p.val = r.val; rw [e0, hr]; omega
  | ⟨1, _⟩ => show win0_0.index t (1 : Fin 2) * 128 + 1 * k.val = k.val; rw [e1]; omega

/-- Every point's block of `w` is the whole weight matrix. -/
theorem wblk_apply (c : Dev nD) (t : Fin cfg0.N) (k : Fin 128) (q : Fin 128) :
    (iblk0 (V0 m ρ) c 1 t : Vec Ideal S128x128 .f32) (ix2 k q)
      = (m ((c.tc : Thread nD τ).loc main_arg1) : Weights.Idx → EReal) (ix2 k q) := by
  obtain ⟨-, -, e0, e1, -⟩ := index_facts t
  unfold iblk0
  rw [View.read_apply]
  show (m ((c.tc : Thread nD τ).loc main_arg1) : Weights.Idx → EReal) _ = _
  congr 1
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- The matrix product as an array on the node × feature grid. -/
abbrev xw (c : Dev nD) : NodeFeat.Idx → EReal :=
  grid (matProd (m ((c.tc : Thread nD τ).loc main_arg0)) (m ((c.tc : Thread nD τ).loc main_arg1)))

/-- What point `t` writes back is its block of the matrix product. -/
theorem flushed_eq (c : Dev nD) (t : Fin cfg0.N) :
    (dat0 (V0 m ρ) c).flushed 2 t = ((cfg0.win 2).blk t).view.read (Elt Ideal) (xw m c) := by
  show (cfg0.win 2).cut (grid0.coords t) ((dat0 (V0 m ρ) c).after 2 t) = _
  rw [after0_2]
  unfold out0_2
  rw [View.canon_unit_zero zeroOffsets]
  simp only [View.ld_unit_zero (S := S1000x128) zeroOffsets, View.ld_unit_zero (S := S128x128) zeroOffsets]
  funext j
  obtain ⟨p, q, rfl⟩ : ∃ (p : Fin 1000) (q : Fin 128), j = ix2 p q := ⟨j 0, j 1, eq_ix2 j⟩
  show k0_pay1 (iblk0 (V0 m ρ) c 0 t) (iblk0 (V0 m ρ) c 1 t) (ix2 p q)
      = xw m c (((cfg0.win 2).blk t).view.emb (ix2 p q))
  obtain ⟨-, -, -, -, e0, e1⟩ := index_facts t
  have ht : t.val < 50 := lt_of_lt_of_eq t.isLt N_0
  have hemb : ((cfg0.win 2).blk t).view.emb (ix2 p q) = ix2 (⟨t.val * 1000 + p.val, by omega⟩ : Fin 50000) q := by
    funext a
    apply Fin.ext
    match a with
    | ⟨0, _⟩ => show win0_2.index t (0 : Fin 2) * 1000 + 1 * p.val = t.val * 1000 + p.val; rw [e0]; omega
    | ⟨1, _⟩ => show win0_2.index t (1 : Fin 2) * 128 + 1 * q.val = q.val; rw [e1]; omega
  rw [hemb, pay_apply]
  refine Eq.trans ?_ (grid_ix2 _ _ _).symm
  unfold matProd
  refine Finset.sum_congr rfl fun k _ => ?_
  rw [xblk_apply m ρ c t p k ⟨t.val * 1000 + p.val, by omega⟩ rfl, wblk_apply]

/-- An entry of the result is in point `t`'s block when each coordinate is in the block's range on its axis. -/
theorem mem_blk (t : Fin cfg0.N) (i : S50000x128.Idx) :
    i ∈ ((cfg0.win 2).blk t).view.set ↔ ∀ a : Fin 2, win0_2.index t a * S1000x128.size a ≤ (i a).val
      ∧ (i a).val < win0_2.index t a * S1000x128.size a + S1000x128.size a := by
  show i ∈ ((View.whole main_v0).slice (win0_2.rect t)).set ↔ _
  rw [View.set_slice_whole, Rect.mem_set_unit]
  exact Iff.rfl

/-- After the first kernel its output array is the matrix product, entry by entry. -/
theorem xw_eq (c : Dev nD) :
    (W1 m ρ c (Proc.devRef .tc main_v0) : NodeFeat.Idx → EReal)
      = grid (matProd (m ((c.tc : Thread nD τ).loc main_arg0)) (m ((c.tc : Thread nD τ).loc main_arg1))) := by
  refine (W1_arr m ρ c 2).trans ?_
  refine (dat0 (V0 m ρ) c).arrAt_eq_of_cover 2 (xw m c) (fun t _ => flushed_eq m ρ c t) fun i => ?_
  have hi0 : (i 0).val < 50000 := (i 0).isLt
  have hi1 : (i 1).val < 128 := (i 1).isLt
  have ht : (i 0).val / 1000 < cfg0.N := by rw [show cfg0.N = 50 from N_0]; omega
  obtain ⟨-, -, -, -, e0, e1⟩ := index_facts ⟨(i 0).val / 1000, ht⟩
  refine ⟨⟨(i 0).val / 1000, ht⟩, flush0_2 _, ?_⟩
  rw [mem_blk]
  intro a
  match a with
  | ⟨0, _⟩ =>
    show win0_2.index ⟨(i 0).val / 1000, ht⟩ (0 : Fin 2) * 1000 ≤ (i 0).val
      ∧ (i 0).val < win0_2.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win0_2.index ⟨(i 0).val / 1000, ht⟩ (1 : Fin 2) * 128 ≤ (i 1).val
      ∧ (i 1).val < win0_2.index ⟨(i 0).val / 1000, ht⟩ (1 : Fin 2) * 128 + 128
    rw [e1]; omega

end Cert.KernelIdeal.Reg0

end
-- ==== Proof.ConvChain.lean ====
/-
  The graph convolution on the host, as one function of the feature–weight product `xw`, the bias and the edge list.

  The edge list's two rows, each followed by one self-loop per node, are the source and target node of 650000 messages.
  A node's degree is the number of messages that target it (negative targets wrapped once by the node count); its
  weight is `rsqrt (max degree 1)` where the degree is positive and zero elsewhere.  A message carries row `src` of
  `xw` scaled by the product of the two end nodes' weights; the messages are summed into their target rows and the bias
  is added to every row.  The same operations, in the same order, make the pre-activation in both programs; this module
  names them once.
-/
import proofs.«178980_j75720273428864_1_alg».proof.KernelIdeal
import proofs.«178980_j75720273428864_1_alg».proof.Proof.Gen.KernelIdeal

noncomputable section

namespace Cert.KernelIdeal.Conv

open Cert.KernelIdeal Idealize.ShloMosaic Idealize.ShloMosaic.TcCoe
open Cert.KernelIdeal.Facts₀

variable {F : FTy → Type} [FloatOps F]

/-- Row `r` of the edge list as a vector of 600000 node numbers followed by the 50000 self-loops `0, 1, …`. -/
def srcIdx (ei : IVec S2x600000 32) : IVec S650000 32 :=
  concatenate S650000 0 [⟨S600000, shapeCast _ (extractStridedSlice S1x600000 ![0, 0] ei slices_S2x600000_S1x600000_0_0) shapeCasts_S1x600000_S600000⟩, ⟨S50000, iotaInDim S50000 32 0⟩] concatenates_S600000_S50000_S650000_d0

def dstIdx (ei : IVec S2x600000 32) : IVec S650000 32 :=
  concatenate S650000 0 [⟨S600000, shapeCast _ (extractStridedSlice S1x600000 ![1, 0] ei slices_S2x600000_S1x600000_1_0) shapeCasts_S1x600000_S600000⟩, ⟨S50000, iotaInDim S50000 32 0⟩] concatenates_S600000_S50000_S650000_d0

/-- A negative node number wrapped once by the node count. -/
def wrap (idx : IVec S650000 32) : IVec S650000 32 :=
  select (cmpi .slt idx (broadcastInDim S650000 ![] bcast_S_S650000 (constantI S_ 32 0#32)))
    (addi idx (broadcastInDim S650000 ![] bcast_S_S650000 (constantI S_ 32 50000#32))) idx

/-- A vector of node numbers as a one-column index array. -/
def col (idx : IVec S650000 32) : IVec S650000x1 32 := broadcastInDim S650000x1 ![0] bcast_S650000_S650000x1_0 idx

/-- The number of messages that target each node. -/
def degree (ei : IVec S2x600000 32) : FVec F S50000 .f32 :=
  Host.scatterAdd scatter_S50000_S650000x1_S650000_n_0_0_1
    (broadcastInDim S50000 ![] bcast_S_S50000 (constant S_ .f32 0x00000000#32))
    (col (wrap (dstIdx ei)))
    (broadcastInDim S650000 ![] bcast_S_S650000 (constant S_ .f32 0x3F800000#32))

/-- A node's weight: `rsqrt (max degree 1)` where the degree is positive, zero elsewhere. -/
def nodeWeight (ei : IVec S2x600000 32) : FVec F S50000 .f32 :=
  select (cmpf .ogt (degree (F := F) ei) (broadcastInDim S50000 ![] bcast_S_S50000 (constant S_ .f32 0x00000000#32)))
    (Host.rsqrt (maximumf (degree (F := F) ei) (broadcastInDim S50000 ![] bcast_S_S50000 (constant S_ .f32 0x3F800000#32))))
    (broadcastInDim S50000 ![] bcast_S_S50000 (id (constant S_ .f32 0x00000000#32)))

/-- A message's scale: the product of its two end nodes' weights. -/
def edgeScale (ei : IVec S2x600000 32) : FVec F S650000 .f32 :=
  mulf (Host.gather gather_S50000_S650000x1_S650000_n_0_n_n_0_1_1 (nodeWeight (F := F) ei) (col (wrap (srcIdx ei))))
    (Host.gather gather_S50000_S650000x1_S650000_n_0_n_n_0_1_1 (nodeWeight (F := F) ei) (col (wrap (dstIdx ei))))

/-- The messages: row `src` of `xw` times the message's scale. -/
def messages (xw : FVec F S50000x128 .f32) (ei : IVec S2x600000 32) : FVec F S650000x128 .f32 :=
  mulf (Host.gather gather_S50000x128_S650000x1_S650000x128_1_0_n_n_0_1_1128 xw (col (wrap (srcIdx ei))))
    (broadcastInDim S650000x128 ![0, 1] bcast_S650000x1_S650000x128_0_1
      (broadcastInDim S650000x1 ![0] bcast_S650000_S650000x1_0 (edgeScale (F := F) ei)))

/-- The pre-activation: the messages summed into their target rows, plus the bias on every row. -/
def preAct (xw : FVec F S50000x128 .f32) (bias : FVec F S128 .f32) (ei : IVec S2x600000 32) : FVec F S50000x128 .f32 :=
  addf (Host.scatterAdd scatter_S50000x128_S650000x1_S650000x128_1_0_0_1
      (broadcastInDim S50000x128 ![] bcast_S_S50000x128 (constant S_ .f32 0x00000000#32))
      (col (dstIdx ei))
      (messages xw ei))
    (broadcastInDim S50000x128 ![0, 1] bcast_S1x128_S50000x128_0_1 (broadcastInDim S1x128 ![1] bcast_S128_S1x128_1 bias))

end Cert.KernelIdeal.Conv

end
-- ==== Proof.KHost1.lean ====
/-
  Between the first and the second kernel the host computes the pre-activation from the first kernel's output, the bias
  and the edge list: the graph convolution of ConvChain.lean.
-/
import proofs.«178980_j75720273428864_1_alg».proof.Proof.Gen.KernelIdeal.Frame
import proofs.«178980_j75720273428864_1_alg».proof.Proof.Spec
import proofs.«178980_j75720273428864_1_alg».proof.Proof.ConvChain
import Idealize.ShloMosaic.Lib.StableHlo.Run
set_option maxRecDepth 16384

noncomputable section

open scoped BigOperators

namespace Cert.KernelIdeal.Host1

open Cert.KernelIdeal Cert.KernelIdeal.Gen Cert.GcnNorm
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The first kernel leaves the bias and the edge list as launched. -/
theorem W1_bias (c : Dev nD) : W1 m ρ c (Proc.devRef .tc main_arg2) = m ((c.tc : Thread nD τ).loc main_arg2) :=
  W1_of_ne m ρ c main_arg2 (by decide)

theorem W1_edges (c : Dev nD) : W1 m ρ c (Proc.devRef .tc main_arg6) = m ((c.tc : Thread nD τ).loc main_arg6) :=
  W1_of_ne m ρ c main_arg6 (by decide)

set_option maxHeartbeats 4000000 in
/-- The second kernel finds the pre-activation in its input array. -/
theorem preAct_eq (c : Dev nD) :
    (W4 m ρ c (Proc.devRef .tc main_v53) : FVec Ideal S50000x128 .f32)
      = Conv.preAct (F := Ideal) (W1 m ρ c (Proc.devRef .tc main_v0)) (m ((c.tc : Thread nD τ).loc main_arg2))
          (m ((c.tc : Thread nD τ).loc main_arg6)) := by
  rw [← W1_bias m ρ c, ← W1_edges m ρ c]
  show StableHlo.after hostOps1_2 (StableHlo.after hostOps1_1 (StableHlo.after hostOps1 (W1 m ρ c))) (Proc.devRef .tc main_v53) = _
  after_results_simp
  (try simp only [StableHlo.TRef.ofBuf, StableHlo.TRef.toBuf, cast_eq])
  rfl

end Cert.KernelIdeal.Host1

end
-- ==== Proof.KReg1.lean ====
/-
  The second kernel: per feature, the sum and the sum of squares of `relu z` over the nodes, accumulated over 50 row
  blocks of 1000 nodes in two one-row outputs that stay in place from point to point (reset at the first point, written
  back once after the last).

  The road: each case of the body leaves in each output one covering store, whose payload is what the output held (zero
  at the first point) plus the sum over the block's 1000 rows of `relu` of the block (of its square for the second
  output); so after point `n` the outputs hold, per feature, the sums over the first `n + 1` row blocks (induction on
  the point); the last point's write-back covers the one-row arrays; and the sum over 50 blocks of 1000 rows is the sum
  over the 50000 nodes (addition on the extended reals is commutative and associative, so no finiteness is asked).
-/
import proofs.«178980_j75720273428864_1_alg».proof.Proof.Gen.KernelIdeal.Frame
import proofs.«178980_j75720273428864_1_alg».proof.Proof.Spec
import Idealize.ShloMosaic.Lib.Pipeline.Value
import Idealize.ShloMosaic.PureOps.Ideal.Laws
import Idealize.ShloMosaic.Lib.Tactic
import Mathlib.Logic.Equiv.Fin.Basic
import Mathlib.Data.Fintype.BigOperators
import Mathlib.Algebra.BigOperators.Fin
import Mathlib.Algebra.BigOperators.Group.Finset.Defs
set_option maxRecDepth 16384

noncomputable section

open scoped BigOperators

namespace Cert.KernelIdeal.Reg1

open Cert.KernelIdeal Cert.KernelIdeal.Gen Cert.GcnNorm
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

section Pieces
variable {F : FTy → Type} [FloatOps F]

/-- The zero offsets of a store or load through a whole one-row block. -/
theorem hz : (![0, 0] : Fin 2 → Nat) = fun _ => 0 := funext fun a => by fin_cases a <;> rfl

/-- A later point leaves in the first output its one covering store: the update of what the output held. -/
theorem piece_B_1 (c : Dev nD) (i : grid1.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S1000x128 .f32) (xo1 xo2 : Vec F S1x128 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  sl_unfold_words
  rw [View.canon_unit_zero hz]
  simp only [View.readAt_eq_ld, h1.read_unread, h2.read_unread, View.ld_unit_zero (S := S1000x128) hz,
    View.ld_unit_zero (S := S1x128) hz]

/-- A later point leaves in the second output its one covering store: the update of what the output held. -/
theorem piece_B_2 (c : Dev nD) (i : grid1.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S1000x128 .f32) (xo1 xo2 : Vec F S1x128 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  sl_unfold_words
  rw [View.canon_unit_zero hz]
  simp only [View.readAt_eq_ld, h1.read_unread, h3.read_unread, View.ld_unit_zero (S := S1000x128) hz,
    View.ld_unit_zero (S := S1x128) hz]

/-- The first point stores zeros in the first output, reads them back, and leaves the update of the zero row. -/
theorem piece_A_1 (c : Dev nD) (i : grid1.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S1000x128 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) hz]
  simp only [View.readAt_eq_ld, h1.read_unread, View.ld_unit_zero (S := S1000x128) hz,
    View.readCov_unit_zero (S := S1x128) _ hz]

/-- The first point stores zeros in the second output, reads them back, and leaves the update of the zero row. -/
theorem piece_A_2 (c : Dev nD) (i : grid1.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S1000x128 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x128) hz]
  simp only [View.readAt_eq_ld, h1.read_unread, View.ld_unit_zero (S := S1000x128) hz,
    View.readCov_unit_zero (S := S1x128) _ hz]

end Pieces

section Reads

/-- The inserted index of the lane reduction over the first axis: row `k`, lane `q`. -/
theorem lift_ix (h : S1000x128.Reduces [0] S128) (q : Fin 128) (k : Fin 1000) : h.lift (ix1 q) k = ix2 k q := by
  funext c
  apply Fin.ext
  match c with
  | ⟨0, _⟩ => rfl
  | ⟨1, _⟩ => rfl

/-- The trailing coordinates of a one-row index. -/
theorem tail_ix (a : Fin 1) (q : Fin 128) : (fun b : Fin 1 => (ix2 a q : S1x128.Idx) b.succ) = ix1 q := by
  funext b
  match b with
  | ⟨0, _⟩ => rfl

/-- A sum over the first axis of a 1000 × 128 vector, stored as one row, read at an entry. -/
theorem lanes_apply (w : FVec Ideal S1000x128 .f32) (a : Fin 1) (q : Fin 128) (hφ : FKind.Formats .f32)
    (hacc : (0x00000000#32 : BitVec 32) = FKind.add.neutral .f32 hφ) :
    shapeCast S1x128 (multiReduction .add [0] S128 w 0x00000000#32 reduces_S1000x128_S128 hφ hacc) shapeCasts_S128_S1x128 (ix2 a q)
      = ∑ r : Fin 1000, w (ix2 r q) := by
  refine (shapeCast_addUnit_apply ![128] _ shapeCasts_S128_S1x128 (ix2 a q)).trans ?_
  rw [tail_ix]
  refine (Ideal.multiReduction_add_single w _ reduces_S1000x128_S128 hφ hacc (ix1 q)).trans ?_
  exact Finset.sum_congr rfl fun r _ => congrArg w (lift_ix _ q r)

/-- ReLU of the block at an entry. -/
theorem pay3_apply (x : Vec Ideal S1000x128 .f32) (r : Fin 1000) (q : Fin 128) :
    k1_pay3 (F := Ideal) x (ix2 r q) = max (x (ix2 r q)) zeroWord := by
  unfold k1_pay3
  exact congrArg (fun v : Vec Ideal S1000x128 .f32 => max (v (ix2 r q)) zeroWord) (shapeCast_self x _)

/-- The first output's update at an entry: what it held plus the lane sum of ReLU of the block. -/
theorem pay4_apply (x : Vec Ideal S1000x128 .f32) (v : Vec Ideal S1x128 .f32) (a : Fin 1) (q : Fin 128) :
    k1_pay4 (F := Ideal) x v (ix2 a q) = v (ix2 a q) + ∑ r : Fin 1000, max (x (ix2 r q)) zeroWord := by
  unfold k1_pay4
  exact congrArg₂ (· + ·) (congrFun (shapeCast_self v _) (ix2 a q))
    ((lanes_apply (k1_pay3 x) a q _ _).trans (Finset.sum_congr rfl fun r _ => pay3_apply x r q))

/-- The second output's update at an entry: what it held plus the lane sum of the squares of ReLU of the block. -/
theorem pay5_apply (x : Vec Ideal S1000x128 .f32) (v : Vec Ideal S1x128 .f32) (a : Fin 1) (q : Fin 128) :
    k1_pay5 (F := Ideal) x v (ix2 a q)
      = v (ix2 a q) + ∑ r : Fin 1000, max (x (ix2 r q)) zeroWord * max (x (ix2 r q)) zeroWord := by
  unfold k1_pay5
  exact congrArg₂ (· + ·) (congrFun (shapeCast_self v _) (ix2 a q))
    ((lanes_apply (mulf (k1_pay3 x) (k1_pay3 x)) a q _ _).trans
      (Finset.sum_congr rfl fun r _ => congrArg₂ (· * ·) (pay3_apply x r q) (pay3_apply x r q)))

/-- The reset value is zero at every entry. -/
theorem pay1_apply (a : Fin 1) (q : Fin 128) : k1_pay1 (F := Ideal) (ix2 a q) = 0 := Ideal.ofBits_zero_f32
theorem pay2_apply (a : Fin 1) (q : Fin 128) : k1_pay2 (F := Ideal) (ix2 a q) = 0 := Ideal.ofBits_zero_f32

end Reads

section Blocks

variable (V : (c : Dev nD) → (b : Ref sig .tc) → Buf (Elt Ideal) ((c : Thread nD τ).loc b))

/-- The pre-activation array and its row block at a point, at their literal shapes. -/
abbrev zarr (c : Dev nD) : Vec Ideal S50000x128 .f32 := V c main_v53
abbrev zblk (c : Dev nD) (t : Fin cfg1.N) : Vec Ideal S1000x128 .f32 := iblk1 V c 0 t

/-- The input window's block index at point `t` is `(t, 0)`. -/
theorem index1_0 : ∀ t : Fin cfg1.N, win1_0.index t 0 = t.val ∧ win1_0.index t 1 = 0 :=
  (by decide +kernel : ∀ t : Fin grid1.N, win1_0.index t 0 = t.val ∧ win1_0.index t 1 = 0)

/-- The grid has 50 points. -/
theorem lt_N (t : Fin cfg1.N) : t.val < 50 := lt_of_lt_of_eq t.isLt (show cfg1.N = 50 from N_1)

/-- Row `r` of block `t` is row `1000 t + r` of the array. -/
theorem blk_apply (c : Dev nD) (t : Fin cfg1.N) (r : Fin 1000) (q : Fin 128) :
    zblk V c t (ix2 r q) = zarr V c (ix2 ⟨1000 * t.val + r.val, by have := lt_N t; have := r.isLt; omega⟩ q) := by
  unfold zblk iblk1
  rw [View.read_apply]
  show V c main_v53 _ = V c main_v53 _
  congr 1
  funext a
  apply Fin.ext
  match a with
  | ⟨0, _⟩ => show win1_0.index t 0 * 1000 + 1 * r.val = 1000 * t.val + r.val; rw [(index1_0 t).1]; omega
  | ⟨1, _⟩ => show win1_0.index t 1 * 128 + 1 * q.val = q.val; rw [(index1_0 t).2]; omega

end Blocks

section Invariant

variable (V : (c : Dev nD) → (b : Ref sig .tc) → Buf (Elt Ideal) ((c : Thread nD τ).loc b))

/-- ReLU of an entry against the word `+0.0`, and its square. -/
abbrev reluW (x : EReal) : EReal := max x zeroWord
abbrev reluSq (x : EReal) : EReal := max x zeroWord * max x zeroWord

/-- The sum of `f` of the array over row block `s` at feature `q` (zero past the grid). -/
def blockSum (z : Vec Ideal S50000x128 .f32) (f : EReal → EReal) (s : ℕ) (q : Fin 128) : EReal :=
  if h : s < 50 then ∑ r : Fin 1000, f (z (ix2 ⟨1000 * s + r.val, by have := r.isLt; omega⟩ q)) else 0

theorem blockSum_of_lt (z : Vec Ideal S50000x128 .f32) (f : EReal → EReal) (s : ℕ) (q : Fin 128) (h : s < 50) :
    blockSum z f s q = ∑ r : Fin 1000, f (z (ix2 ⟨1000 * s + r.val, by have := r.isLt; omega⟩ q)) := dif_pos h

/-- The lane sum over block `t` is the array's block sum. -/
theorem blockSum_blk (c : Dev nD) (t : Fin cfg1.N) (f : EReal → EReal) (q : Fin 128) :
    ∑ r : Fin 1000, f (zblk V c t (ix2 r q)) = blockSum (zarr V c) f t.val q :=
  (Finset.sum_congr rfl fun r _ => congrArg f (blk_apply V c t r q)).trans (blockSum_of_lt (zarr V c) f t.val q (lt_N t)).symm

/-- The first point resets then adds its block. -/
theorem step_A (c : Dev nD) (t : Fin cfg1.N) (hA : t.val % 50 = 0) (a : Fin 1) (q : Fin 128) :
    (outsAt1 V c t.val t.isLt).1 (ix2 a q) = blockSum (zarr V c) reluW t.val q
    ∧ (outsAt1 V c t.val t.isLt).2 (ix2 a q) = blockSum (zarr V c) reluSq t.val q := by
  rw [outsAt1_A V c t hA]
  dsimp only
  constructor
  · refine (congrFun (piece_A_1 (F := Ideal) c (grid1.coords t) (ms1_0 t) (hs1_0 t) (ms1_1 t) (hs1_1 t) (ms1_2 t) (hs1_2 t)
      ((hcond1_0 t).mpr hA) (zblk V c t)) (ix2 a q)).trans ?_
    refine (pay4_apply (zblk V c t) (k1_pay1 (F := Ideal)) a q).trans ?_
    rw [pay1_apply, zero_add]
    exact blockSum_blk V c t reluW q
  · refine (congrFun (piece_A_2 (F := Ideal) c (grid1.coords t) (ms1_0 t) (hs1_0 t) (ms1_1 t) (hs1_1 t) (ms1_2 t) (hs1_2 t)
      ((hcond1_0 t).mpr hA) (zblk V c t)) (ix2 a q)).trans ?_
    refine (pay5_apply (zblk V c t) (k1_pay2 (F := Ideal)) a q).trans ?_
    rw [pay2_apply, zero_add]
    exact blockSum_blk V c t reluSq q

/-- Every later point adds its block to what the point before left. -/
theorem step_B (c : Dev nD) (t : Fin cfg1.N) (hB : ¬t.val % 50 = 0) (a : Fin 1) (q : Fin 128) :
    (outsAt1 V c t.val t.isLt).1 (ix2 a q)
      = (outsAt1 V c (t.val - 1) (Nat.lt_of_le_of_lt (Nat.sub_le _ _) t.isLt)).1 (ix2 a q) + blockSum (zarr V c) reluW t.val q
    ∧ (outsAt1 V c t.val t.isLt).2 (ix2 a q)
      = (outsAt1 V c (t.val - 1) (Nat.lt_of_le_of_lt (Nat.sub_le _ _) t.isLt)).2 (ix2 a q) + blockSum (zarr V c) reluSq t.val q := by
  rw [outsAt1_B V c t hB]
  dsimp only
  constructor
  · refine (congrFun (piece_B_1 (F := Ideal) c (grid1.coords t) (ms1_0 t) (hs1_0 t) (ms1_1 t) (hs1_1 t) (ms1_2 t) (hs1_2 t)
      (fun h => hB ((hcond1_0 t).mp h)) (zblk V c t)
      (outsAt1 V c (t.val - 1) (Nat.lt_of_le_of_lt (Nat.sub_le _ _) t.isLt)).1
      (outsAt1 V c (t.val - 1) (Nat.lt_of_le_of_lt (Nat.sub_le _ _) t.isLt)).2) (ix2 a q)).trans ?_
    refine (pay4_apply (zblk V c t) (outsAt1 V c (t.val - 1) (Nat.lt_of_le_of_lt (Nat.sub_le _ _) t.isLt)).1 a q).trans ?_
    exact congrArg (_ + ·) (blockSum_blk V c t reluW q)
  · refine (congrFun (piece_B_2 (F := Ideal) c (grid1.coords t) (ms1_0 t) (hs1_0 t) (ms1_1 t) (hs1_1 t) (ms1_2 t) (hs1_2 t)
      (fun h => hB ((hcond1_0 t).mp h)) (zblk V c t)
      (outsAt1 V c (t.val - 1) (Nat.lt_of_le_of_lt (Nat.sub_le _ _) t.isLt)).1
      (outsAt1 V c (t.val - 1) (Nat.lt_of_le_of_lt (Nat.sub_le _ _) t.isLt)).2) (ix2 a q)).trans ?_
    refine (pay5_apply (zblk V c t) (outsAt1 V c (t.val - 1) (Nat.lt_of_le_of_lt (Nat.sub_le _ _) t.isLt)).2 a q).trans ?_
    exact congrArg (_ + ·) (blockSum_blk V c t reluSq q)

/-- After point `n` the outputs hold the block sums of the first `n + 1` row blocks. -/
theorem outs_eq (c : Dev nD) : ∀ (n : ℕ) (h : n < cfg1.N) (a : Fin 1) (q : Fin 128),
    (outsAt1 V c n h).1 (ix2 a q) = ∑ s ∈ Finset.range (n + 1), blockSum (zarr V c) reluW s q
    ∧ (outsAt1 V c n h).2 (ix2 a q) = ∑ s ∈ Finset.range (n + 1), blockSum (zarr V c) reluSq s q
  | 0, h, a, q => by
    rw [Finset.sum_range_one, Finset.sum_range_one]
    exact step_A V c ⟨0, h⟩ rfl a q
  | n + 1, h, a, q => by
    have hN : n + 1 < 50 := lt_N ⟨n + 1, h⟩
    have hB : ¬(⟨n + 1, h⟩ : Fin cfg1.N).val % 50 = 0 := by dsimp only; omega
    have s1 : (outsAt1 V c (n + 1) h).1 (ix2 a q)
        = (outsAt1 V c n (Nat.lt_of_succ_lt h)).1 (ix2 a q) + blockSum (zarr V c) reluW (n + 1) q :=
      (step_B V c ⟨n + 1, h⟩ hB a q).1
    have s2 : (outsAt1 V c (n + 1) h).2 (ix2 a q)
        = (outsAt1 V c n (Nat.lt_of_succ_lt h)).2 (ix2 a q) + blockSum (zarr V c) reluSq (n + 1) q :=
      (step_B V c ⟨n + 1, h⟩ hB a q).2
    obtain ⟨i1, i2⟩ := outs_eq c n (Nat.lt_of_succ_lt h) a q
    rw [s1, s2, i1, i2, Finset.sum_range_succ _ (n + 1), Finset.sum_range_succ _ (n + 1)]
    exact ⟨rfl, rfl⟩

end Invariant

section Sums

/-- A sum over 50000 nodes is the sum over 50 row blocks of the sums over their 1000 rows. -/
theorem sum_blocks (G : Fin 50000 → EReal) :
    ∑ p : Fin 50000, G p = ∑ t : Fin 50, ∑ r : Fin 1000, G ⟨1000 * t.val + r.val, by have := t.isLt; have := r.isLt; omega⟩ := by
  calc ∑ p : Fin 50000, G p
      = ∑ x : Fin 50 × Fin 1000, G (finProdFinEquiv x) := (Equiv.sum_comp (finProdFinEquiv (m := 50) (n := 1000)) G).symm
    _ = ∑ t : Fin 50, ∑ r : Fin 1000, G (finProdFinEquiv (t, r)) := Fintype.sum_prod_type _
    _ = _ := Finset.sum_congr rfl fun t _ => Finset.sum_congr rfl fun r _ => congrArg G (Fin.ext (by
        show r.val + 1000 * t.val = 1000 * t.val + r.val
        omega))

/-- The block sums of all 50 row blocks add up to the column sum over the nodes. -/
theorem total_eq (z : Vec Ideal S50000x128 .f32) (f : EReal → EReal) (q : Fin 128) :
    ∑ s ∈ Finset.range 50, blockSum z f s q = ∑ p : Fin 50000, f (z (ix2 p q)) := by
  rw [Finset.sum_range, sum_blocks fun p => f (z (ix2 p q))]
  exact Finset.sum_congr rfl fun t _ => blockSum_of_lt z f t.val q t.isLt

end Sums

section Final

variable (V : (c : Dev nD) → (b : Ref sig .tc) → Buf (Elt Ideal) ((c : Thread nD τ).loc b))

/-- The last point of the grid, the one that writes the outputs back. -/
abbrev tLast : Fin cfg1.N := ⟨49, by rw [show cfg1.N = 50 from N_1]; decide⟩

/-- What the two output arrays end holding: per feature the block sums of all 50 row blocks. -/
abbrev result1 (c : Dev nD) : Buf (Elt Ideal) ((c : Thread nD τ).loc main_v54_0) :=
  row fun q => ∑ s ∈ Finset.range 50, blockSum (zarr V c) reluW s q
abbrev result2 (c : Dev nD) : Buf (Elt Ideal) ((c : Thread nD τ).loc main_v54_1) :=
  row fun q => ∑ s ∈ Finset.range 50, blockSum (zarr V c) reluSq s q

/-- After the last point the outputs hold the block sums of all 50 row blocks, as whole rows. -/
theorem outs_last (c : Dev nD) :
    (outsAt1 V c tLast.val tLast.isLt).1 = result1 V c ∧ (outsAt1 V c tLast.val tLast.isLt).2 = result2 V c := by
  constructor
  · funext j
    obtain ⟨a, q, rfl⟩ : ∃ (a : Fin 1) (q : Fin 128), j = ix2 a q := ⟨j 0, j 1, eq_ix2 j⟩
    exact (outs_eq V c 49 tLast.isLt a q).1
  · funext j
    obtain ⟨a, q, rfl⟩ : ∃ (a : Fin 1) (q : Fin 128), j = ix2 a q := ⟨j 0, j 1, eq_ix2 j⟩
    exact (outs_eq V c 49 tLast.isLt a q).2

/-- The one write-back of the first output, at the last point: its block is the whole one-row array. -/
theorem flushed_eq1 (c : Dev nD) (t : Fin cfg1.N) (hf : (cfg1.win 1).flush t = true) :
    (dat1 V c).flushed 1 t = ((cfg1.win 1).blk t).view.read (Elt Ideal) (result1 V c) := by
  have h49 : t.val = 49 := by have := (flush1_1 t).mp hf; have := lt_N t; omega
  obtain rfl : t = tLast := Fin.ext h49
  show (cfg1.win 1).cut (grid1.coords tLast) ((dat1 V c).after 1 tLast) = _
  rw [after1_1, (outs_last V c).1]
  have hz' : (fun a => win1_1.index tLast a * main_v54_0.ty.shape.size a) = fun _ => 0 := funext fun a => by fin_cases a <;> decide +kernel
  exact (Memref.read_access_unit_zero (Elt Ideal) main_v54_0 hz' (fun a => by rw [congrFun hz' a]; simp) (result1 V c)).symm

/-- The one write-back of the second output, at the last point: its block is the whole one-row array. -/
theorem flushed_eq2 (c : Dev nD) (t : Fin cfg1.N) (hf : (cfg1.win 2).flush t = true) :
    (dat1 V c).flushed 2 t = ((cfg1.win 2).blk t).view.read (Elt Ideal) (result2 V c) := by
  have h49 : t.val = 49 := by have := (flush1_2 t).mp hf; have := lt_N t; omega
  obtain rfl : t = tLast := Fin.ext h49
  show (cfg1.win 2).cut (grid1.coords tLast) ((dat1 V c).after 2 tLast) = _
  rw [after1_2, (outs_last V c).2]
  have hz' : (fun a => win1_2.index tLast a * main_v54_1.ty.shape.size a) = fun _ => 0 := funext fun a => by fin_cases a <;> decide +kernel
  exact (Memref.read_access_unit_zero (Elt Ideal) main_v54_1 hz' (fun a => by rw [congrFun hz' a]; simp) (result2 V c)).symm

/-- So the first output array ends holding the block sums of all row blocks: the last point's block covers it. -/
theorem final1 (c : Dev nD) : (dat1 V c).arrAt 1 cfg1.N = result1 V c :=
  (dat1 V c).arrAt_eq_of_cover 1 (result1 V c) (flushed_eq1 V c) fun i =>
    ⟨tLast, (flush1_1 tLast).mpr rfl, by
      show i ∈ ((View.whole main_v54_0).slice (win1_1.rect tLast)).set
      rw [View.set_slice_whole, Rect.mem_set_unit]
      intro a
      have h0 : (i 0 : Nat) < 1 := (i 0).isLt
      have h1 : (i 1 : Nat) < 128 := (i 1).isLt
      match a with
      | ⟨0, _⟩ => show win1_1.index tLast 0 * win1_1.size 0 ≤ (i 0 : Nat) ∧ (i 0 : Nat) < win1_1.index tLast 0 * win1_1.size 0 + win1_1.xsize (grid1.coords tLast) 0
                  rw [show win1_1.index tLast 0 * win1_1.size 0 = 0 from by decide +kernel, show win1_1.xsize (grid1.coords tLast) 0 = 1 from by decide +kernel]; omega
      | ⟨1, _⟩ => show win1_1.index tLast 1 * win1_1.size 1 ≤ (i 1 : Nat) ∧ (i 1 : Nat) < win1_1.index tLast 1 * win1_1.size 1 + win1_1.xsize (grid1.coords tLast) 1
                  rw [show win1_1.index tLast 1 * win1_1.size 1 = 0 from by decide +kernel, show win1_1.xsize (grid1.coords tLast) 1 = 128 from by decide +kernel]; omega⟩

/-- And the second output array ends holding the block sums of the squares. -/
theorem final2 (c : Dev nD) : (dat1 V c).arrAt 2 cfg1.N = result2 V c :=
  (dat1 V c).arrAt_eq_of_cover 2 (result2 V c) (flushed_eq2 V c) fun i =>
    ⟨tLast, (flush1_2 tLast).mpr rfl, by
      show i ∈ ((View.whole main_v54_1).slice (win1_2.rect tLast)).set
      rw [View.set_slice_whole, Rect.mem_set_unit]
      intro a
      have h0 : (i 0 : Nat) < 1 := (i 0).isLt
      have h1 : (i 1 : Nat) < 128 := (i 1).isLt
      match a with
      | ⟨0, _⟩ => show win1_2.index tLast 0 * win1_2.size 0 ≤ (i 0 : Nat) ∧ (i 0 : Nat) < win1_2.index tLast 0 * win1_2.size 0 + win1_2.xsize (grid1.coords tLast) 0
                  rw [show win1_2.index tLast 0 * win1_2.size 0 = 0 from by decide +kernel, show win1_2.xsize (grid1.coords tLast) 0 = 1 from by decide +kernel]; omega
      | ⟨1, _⟩ => show win1_2.index tLast 1 * win1_2.size 1 ≤ (i 1 : Nat) ∧ (i 1 : Nat) < win1_2.index tLast 1 * win1_2.size 1 + win1_2.xsize (grid1.coords tLast) 1
                  rw [show win1_2.index tLast 1 * win1_2.size 1 = 0 from by decide +kernel, show win1_2.xsize (grid1.coords tLast) 1 = 128 from by decide +kernel]; omega⟩

end Final

/-- After the second kernel its first output holds the column sums of `relu z`. -/
theorem sum_eq (c : Dev nD) :
    (W5 m ρ c (Proc.devRef .tc main_v54_0) : FeatRow.Idx → EReal)
      = row (colSum (relu (W4 m ρ c (Proc.devRef .tc main_v53)))) := by
  refine ((W5_arr m ρ c 1).trans (final1 (V4 m ρ) c)).trans ?_
  exact congrArg row (funext fun q => total_eq (zarr (V4 m ρ) c) reluW q)

/-- After the second kernel its second output holds the column sums of the squares of `relu z`. -/
theorem sumsq_eq (c : Dev nD) :
    (W5 m ρ c (Proc.devRef .tc main_v54_1) : FeatRow.Idx → EReal)
      = row (colSum (fun p q => relu (W4 m ρ c (Proc.devRef .tc main_v53)) p q * relu (W4 m ρ c (Proc.devRef .tc main_v53)) p q)) := by
  refine ((W5_arr m ρ c 2).trans (final2 (V4 m ρ) c)).trans ?_
  exact congrArg row (funext fun q => total_eq (zarr (V4 m ρ) c) reluSq q)

end Cert.KernelIdeal.Reg1

end
-- ==== Proof.KHost2.lean ====
/-
  Between the second and the third kernel the host divides the two sums by the node count, takes the variance as the
  mean of squares minus the squared mean, and lays scale and shift out as one-row matrices.  The pre-activation and the
  dropout draws pass through unchanged.
-/
import proofs.«178980_j75720273428864_1_alg».proof.Proof.Gen.KernelIdeal.Frame
import proofs.«178980_j75720273428864_1_alg».proof.Proof.Spec
import Idealize.ShloMosaic.Lib.StableHlo.Run
import Idealize.ShloMosaic.Lib.Pipeline.Value
import Idealize.ShloMosaic.Lib.ValueLayout
set_option maxRecDepth 16384

noncomputable section

open scoped BigOperators

namespace Cert.KernelIdeal.Host2

open Cert.KernelIdeal Cert.KernelIdeal.Gen Cert.GcnNorm
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- A one-row sum divided by the node count. -/
def meanRow (s : FeatRow.Idx → EReal) : FeatRow.Idx → EReal := fun i => Ideal.div (s i) nodeCount

/-- The mean of squares minus the squared mean, feature by feature. -/
def varRow (s mu : FeatRow.Idx → EReal) : FeatRow.Idx → EReal := fun i => Ideal.div (s i) nodeCount - mu i * mu i

/-- The node count broadcast along a row reads as the node count at every entry. -/
theorem count_row (i : FeatRow.Idx) :
    (broadcastInDim S1x128 ![] bcast_S_S1x128 (constant (F := Ideal) S_ .f32 0x47435000#32)) i = nodeCount :=
  broadcastInDim_apply _ bcast_S_S1x128 (constant (F := Ideal) S_ .f32 0x47435000#32) i ix0 (fun a => a.elim0)

/-- The mean row: the sums over the node count. -/
theorem mean_eq (c : Dev nD) :
    (W6 m ρ c (Proc.devRef .tc main_v56) : FeatRow.Idx → EReal) = meanRow (W5 m ρ c (Proc.devRef .tc main_v54_0)) := by
  show StableHlo.after hostOps2 (W5 m ρ c) (Proc.devRef .tc main_v56) = _
  after_results
  funext i
  show Ideal.div _ _ = Ideal.div _ _
  rw [count_row i]

/-- The variance row: the sums of squares over the node count, minus the squared mean. -/
theorem var_eq (c : Dev nD) :
    (W6 m ρ c (Proc.devRef .tc main_v60) : FeatRow.Idx → EReal)
      = varRow (W5 m ρ c (Proc.devRef .tc main_v54_1)) (W6 m ρ c (Proc.devRef .tc main_v56)) := by
  rw [mean_eq m ρ c]
  show StableHlo.after hostOps2 (W5 m ρ c) (Proc.devRef .tc main_v60) = _
  after_results
  funext i
  show Ideal.div _ _ - Ideal.div _ _ * Ideal.div _ _ = Ideal.div _ _ - Ideal.div _ _ * Ideal.div _ _
  rw [count_row i]

/-- The host operations between the second and third kernel leave an argument array as the second kernel left it. -/
theorem W6_arg3 (c : Dev nD) : W6 m ρ c (Proc.devRef .tc main_arg3) = m ((c.tc : Thread nD τ).loc main_arg3) :=
  ((W7_of_ne m ρ c main_arg3 (by decide)).symm).trans (W7_main_arg3 m ρ c)

theorem W6_arg4 (c : Dev nD) : W6 m ρ c (Proc.devRef .tc main_arg4) = m ((c.tc : Thread nD τ).loc main_arg4) :=
  ((W7_of_ne m ρ c main_arg4 (by decide)).symm).trans (W7_main_arg4 m ρ c)

theorem W5_arg3 (c : Dev nD) : W5 m ρ c (Proc.devRef .tc main_arg3) = m ((c.tc : Thread nD τ).loc main_arg3) := by
  rw [← W6_arg3 m ρ c]
  show _ = StableHlo.after hostOps2 (W5 m ρ c) (Proc.devRef .tc main_arg3)
  after_results

theorem W5_arg4 (c : Dev nD) : W5 m ρ c (Proc.devRef .tc main_arg4) = m ((c.tc : Thread nD τ).loc main_arg4) := by
  rw [← W6_arg4 m ρ c]
  show _ = StableHlo.after hostOps2 (W5 m ρ c) (Proc.devRef .tc main_arg4)
  after_results

/-- The scale vector laid out as one row. -/
theorem gamma_eq (c : Dev nD) :
    (W6 m ρ c (Proc.devRef .tc main_v61) : FeatRow.Idx → EReal)
      = row (fun q => (m ((c.tc : Thread nD τ).loc main_arg3) : Feat.Idx → EReal) (ix1 q)) := by
  show StableHlo.after hostOps2 (W5 m ρ c) (Proc.devRef .tc main_v61) = _
  after_results
  rw [W5_arg3 m ρ c]
  funext i
  obtain ⟨a, q, rfl⟩ : ∃ (a : Fin 1) (q : Fin 128), i = ix2 a q := ⟨i 0, i 1, eq_ix2 i⟩
  rw [row_ix2]
  exact shapeCast_a_1a_apply (m ((c.tc : Thread nD τ).loc main_arg3)) shapeCasts_S128_S1x128 a q

/-- The shift vector laid out as one row. -/
theorem beta_eq (c : Dev nD) :
    (W6 m ρ c (Proc.devRef .tc main_v62) : FeatRow.Idx → EReal)
      = row (fun q => (m ((c.tc : Thread nD τ).loc main_arg4) : Feat.Idx → EReal) (ix1 q)) := by
  show StableHlo.after hostOps2 (W5 m ρ c) (Proc.devRef .tc main_v62) = _
  after_results
  rw [W5_arg4 m ρ c]
  funext i
  obtain ⟨a, q, rfl⟩ : ∃ (a : Fin 1) (q : Fin 128), i = ix2 a q := ⟨i 0, i 1, eq_ix2 i⟩
  rw [row_ix2]
  exact shapeCast_a_1a_apply (m ((c.tc : Thread nD τ).loc main_arg4)) shapeCasts_S128_S1x128 a q

/-- The pre-activation reaches the third kernel as the second kernel found it. -/
theorem preAct_kept (c : Dev nD) :
    W6 m ρ c (Proc.devRef .tc main_v53) = W4 m ρ c (Proc.devRef .tc main_v53) := by
  have h1 : W6 m ρ c (Proc.devRef .tc main_v53) = W5 m ρ c (Proc.devRef .tc main_v53) := by
    show StableHlo.after hostOps2 (W5 m ρ c) (Proc.devRef .tc main_v53) = _
    after_results
  exact h1.trans ((W5_arr m ρ c 0).trans (((dat1 (V4 m ρ) c).arrAt_in 0 rfl _).trans (A_eq1 (V4 m ρ) c 0)))

/-- The dropout draws reach the third kernel as launched. -/
theorem draws_kept (c : Dev nD) :
    W6 m ρ c (Proc.devRef .tc main_arg5) = m ((c.tc : Thread nD τ).loc main_arg5) :=
  ((W7_arr m ρ c 1).trans (((dat2 (V6 m ρ) c).arrAt_in 1 rfl _).trans (A_eq2 (V6 m ρ) c 1))).symm.trans (W7_main_arg5 m ρ c)

end Cert.KernelIdeal.Host2

end
-- ==== Proof.KReg2.lean ====
/-
  The third kernel: ReLU, normalisation by the batch statistics, scale and shift, and dropout, a row block of 1000
  nodes per grid point.  Every entry of the output is `applyOf` of the entry of `z`, the entry of the dropout draws, and
  the feature's mean, variance, scale and shift.
-/
import proofs.«178980_j75720273428864_1_alg».proof.Proof.Gen.KernelIdeal.Frame
import proofs.«178980_j75720273428864_1_alg».proof.Proof.Spec
import Idealize.ShloMosaic.Lib.Pipeline.Value
import Idealize.ShloMosaic.Lib.ValueLayout
set_option maxRecDepth 16384

noncomputable section

open scoped BigOperators

namespace Cert.KernelIdeal.Reg2

open Cert.KernelIdeal Cert.KernelIdeal.Gen Cert.GcnNorm
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The zero offsets of an access to a whole buffer, as a constant function. -/
theorem zeroOffsets : (![0, 0] : Fin 2 → Nat) = fun _ => 0 := funext fun a => by fin_cases a <;> rfl

/-- A one-row matrix broadcast along the nodes, read at an entry, is the row's entry in that column. -/
theorem rowBroadcast_apply (v : FVec Ideal S1x128 .f32) (p : Fin 1000) (q : Fin 128) :
    broadcastTo S1000x128 v broadcasts_S1x128_S1000x128 (ix2 p q) = v (ix2 0 q) := by
  refine broadcastTo_apply v _ (ix2 p q) (ix2 0 q) fun a => ?_
  match a with
  | ⟨0, _⟩ => rfl
  | ⟨1, _⟩ => rfl

/-- The dropout mask as the kernel computes it — the comparison's bit widened to 32 bits and read as a signed
    integer — is the bit's value: a one-bit word widened is 0 or 1, both non-negative. -/
theorem keep_eq (u : EReal) :
    (FloatOps.sitofp (F := Ideal) .f32
      ((FloatOps.cmpf (F := Ideal) (φ := .f32) .ogt u (Ideal.ofBits .f32 0x3DCCCCCD#32)).setWidth 32) : EReal)
      = keepOf u := by
  unfold keepOf
  generalize FloatOps.cmpf (F := Ideal) (φ := .f32) .ogt u (Ideal.ofBits .f32 0x3DCCCCCD#32) = b
  show (((b.setWidth 32).toInt : ℝ) : EReal) = ((b.toNat : ℝ) : EReal)
  have e : (b.setWidth 32).toInt = (b.toNat : ℤ) := by
    by_cases h : b = 1#1
    · subst h; decide
    · obtain rfl := eq_zero_of_ne_one h; decide
  rw [e, Int.cast_natCast]

/-- What a point stores at an entry of its block: the layer's output entry from the block's entry of `z` and of
    the draws and the column's mean, variance, scale and shift. -/
theorem pay_apply (z u : Vec Ideal S1000x128 .f32) (var mu g b : Vec Ideal S1x128 .f32) (p : Fin 1000) (q : Fin 128) :
    k2_pay1 z var mu g b u (ix2 p q)
      = applyOf (z (ix2 p q)) (u (ix2 p q)) (mu (ix2 0 q)) (var (ix2 0 q)) (g (ix2 0 q)) (b (ix2 0 q)) := by
  unfold k2_pay1 applyOf
  simp only [mulf_apply, addf_apply, subf_apply, maximumf_apply, broadcast_apply, rowBroadcast_apply, shapeCast_self,
    sitofp_apply, extui_apply, cmpf_apply]
  rw [← keep_eq]
  rfl

/-- The block index maps of the three row-blocked windows over the grid: point `t` takes row block `t` of `z`, of the
    draws and of the output. -/
theorem rowIndex_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_6.index t (0 : Fin 2) = t.val ∧ win2_6.index t (1 : Fin 2) = 0 :=
  (by decide +kernel : ∀ t : Fin grid2.N, _)

/-- The block index maps of the four one-row windows over the grid: every point takes the whole row. -/
theorem featIndex_facts : ∀ t : Fin cfg2.N,
    win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

section Contents

/- The contents of the TensorCore's arrays when the kernel is entered. -/
variable (V : (c : Dev nD) → (b : Ref sig .tc) → Buf (Elt Ideal) ((c : Thread nD τ).loc b))

/-- Point `t`'s block of `z` is rows `1000 t … 1000 t + 999` of the array. -/
theorem zblk_apply (c : Dev nD) (t : Fin cfg2.N) (p : Fin 1000) (q : Fin 128) (r : Fin 50000)
    (hr : r.val = t.val * 1000 + p.val) :
    (iblk2 V c 0 t : Vec Ideal S1000x128 .f32) (ix2 p q) = (V c main_v53 : NodeFeat.Idx → EReal) (ix2 r q) := by
  have e0 : win2_0.index t (0 : Fin 2) = t.val := (rowIndex_facts t).1
  have e1 : win2_0.index t (1 : Fin 2) = 0 := (rowIndex_facts t).2.1
  unfold iblk2
  rw [View.read_apply]
  show (V c main_v53 : NodeFeat.Idx → EReal) _ = _
  congr 1
  funext a
  apply Fin.ext
  match a with
  | ⟨0, _⟩ => show win2_0.index t (0 : Fin 2) * 1000 + 1 * p.val = r.val; rw [e0, hr]; omega
  | ⟨1, _⟩ => show win2_0.index t (1 : Fin 2) * 128 + 1 * q.val = q.val; rw [e1]; omega

/-- Point `t`'s block of the dropout draws is rows `1000 t … 1000 t + 999` of the array. -/
theorem ublk_apply (c : Dev nD) (t : Fin cfg2.N) (p : Fin 1000) (q : Fin 128) (r : Fin 50000)
    (hr : r.val = t.val * 1000 + p.val) :
    (iblk2 V c 1 t : Vec Ideal S1000x128 .f32) (ix2 p q) = (V c main_arg5 : NodeFeat.Idx → EReal) (ix2 r q) := by
  have e0 : win2_1.index t (0 : Fin 2) = t.val := (rowIndex_facts t).2.2.1
  have e1 : win2_1.index t (1 : Fin 2) = 0 := (rowIndex_facts t).2.2.2.1
  unfold iblk2
  rw [View.read_apply]
  show (V c main_arg5 : NodeFeat.Idx → EReal) _ = _
  congr 1
  funext a
  apply Fin.ext
  match a with
  | ⟨0, _⟩ => show win2_1.index t (0 : Fin 2) * 1000 + 1 * p.val = r.val; rw [e0, hr]; omega
  | ⟨1, _⟩ => show win2_1.index t (1 : Fin 2) * 128 + 1 * q.val = q.val; rw [e1]; omega

/-- Every point's block of the mean is the whole row. -/
theorem meanblk_apply (c : Dev nD) (t : Fin cfg2.N) (q : Fin 128) :
    (iblk2 V c 2 t : Vec Ideal S1x128 .f32) (ix2 0 q) = (V c main_v56 : FeatRow.Idx → EReal) (ix2 0 q) := by
  have e0 : win2_2.index t (0 : Fin 2) = 0 := (featIndex_facts t).1
  have e1 : win2_2.index t (1 : Fin 2) = 0 := (featIndex_facts t).2.1
  unfold iblk2
  rw [View.read_apply]
  show (V c main_v56 : FeatRow.Idx → EReal) _ = _
  congr 1
  funext a
  apply Fin.ext
  match a with
  | ⟨0, _⟩ => show win2_2.index t (0 : Fin 2) * 1 + 1 * 0 = 0; rw [e0]
  | ⟨1, _⟩ => show win2_2.index t (1 : Fin 2) * 128 + 1 * q.val = q.val; rw [e1]; omega

/-- Every point's block of the variance is the whole row. -/
theorem varblk_apply (c : Dev nD) (t : Fin cfg2.N) (q : Fin 128) :
    (iblk2 V c 3 t : Vec Ideal S1x128 .f32) (ix2 0 q) = (V c main_v60 : FeatRow.Idx → EReal) (ix2 0 q) := by
  have e0 : win2_3.index t (0 : Fin 2) = 0 := (featIndex_facts t).2.2.1
  have e1 : win2_3.index t (1 : Fin 2) = 0 := (featIndex_facts t).2.2.2.1
  unfold iblk2
  rw [View.read_apply]
  show (V c main_v60 : FeatRow.Idx → EReal) _ = _
  congr 1
  funext a
  apply Fin.ext
  match a with
  | ⟨0, _⟩ => show win2_3.index t (0 : Fin 2) * 1 + 1 * 0 = 0; rw [e0]
  | ⟨1, _⟩ => show win2_3.index t (1 : Fin 2) * 128 + 1 * q.val = q.val; rw [e1]; omega

/-- Every point's block of the scale is the whole row. -/
theorem scaleblk_apply (c : Dev nD) (t : Fin cfg2.N) (q : Fin 128) :
    (iblk2 V c 4 t : Vec Ideal S1x128 .f32) (ix2 0 q) = (V c main_v61 : FeatRow.Idx → EReal) (ix2 0 q) := by
  have e0 : win2_4.index t (0 : Fin 2) = 0 := (featIndex_facts t).2.2.2.2.1
  have e1 : win2_4.index t (1 : Fin 2) = 0 := (featIndex_facts t).2.2.2.2.2.1
  unfold iblk2
  rw [View.read_apply]
  show (V c main_v61 : FeatRow.Idx → EReal) _ = _
  congr 1
  funext a
  apply Fin.ext
  match a with
  | ⟨0, _⟩ => show win2_4.index t (0 : Fin 2) * 1 + 1 * 0 = 0; rw [e0]
  | ⟨1, _⟩ => show win2_4.index t (1 : Fin 2) * 128 + 1 * q.val = q.val; rw [e1]; omega

/-- Every point's block of the shift is the whole row. -/
theorem shiftblk_apply (c : Dev nD) (t : Fin cfg2.N) (q : Fin 128) :
    (iblk2 V c 5 t : Vec Ideal S1x128 .f32) (ix2 0 q) = (V c main_v62 : FeatRow.Idx → EReal) (ix2 0 q) := by
  have e0 : win2_5.index t (0 : Fin 2) = 0 := (featIndex_facts t).2.2.2.2.2.2.1
  have e1 : win2_5.index t (1 : Fin 2) = 0 := (featIndex_facts t).2.2.2.2.2.2.2
  unfold iblk2
  rw [View.read_apply]
  show (V c main_v62 : FeatRow.Idx → EReal) _ = _
  congr 1
  funext a
  apply Fin.ext
  match a with
  | ⟨0, _⟩ => show win2_5.index t (0 : Fin 2) * 1 + 1 * 0 = 0; rw [e0]
  | ⟨1, _⟩ => show win2_5.index t (1 : Fin 2) * 128 + 1 * q.val = q.val; rw [e1]; omega

/-- The layer's output as an array on the node × feature grid, from the contents of the six input arrays. -/
abbrev outArr (c : Dev nD) : NodeFeat.Idx → EReal :=
  grid fun p q => applyOf
    ((V c main_v53 : NodeFeat.Idx → EReal) (ix2 p q))
    ((V c main_arg5 : NodeFeat.Idx → EReal) (ix2 p q))
    ((V c main_v56 : FeatRow.Idx → EReal) (ix2 0 q))
    ((V c main_v60 : FeatRow.Idx → EReal) (ix2 0 q))
    ((V c main_v61 : FeatRow.Idx → EReal) (ix2 0 q))
    ((V c main_v62 : FeatRow.Idx → EReal) (ix2 0 q))

/-- What point `t` writes back is its block of the layer's output. -/
theorem flushed_eq (c : Dev nD) (t : Fin cfg2.N) :
    (dat2 V c).flushed 6 t = ((cfg2.win 6).blk t).view.read (Elt Ideal) (outArr V c) := by
  show (cfg2.win 6).cut (grid2.coords t) ((dat2 V c).after 6 t) = _
  rw [after2_6]
  unfold out2_6
  rw [View.canon_unit_zero zeroOffsets]
  simp only [View.ld_unit_zero (S := S1000x128) zeroOffsets, View.ld_unit_zero (S := S1x128) zeroOffsets]
  funext j
  obtain ⟨p, q, rfl⟩ : ∃ (p : Fin 1000) (q : Fin 128), j = ix2 p q := ⟨j 0, j 1, eq_ix2 j⟩
  show k2_pay1 (iblk2 V c 0 t) (iblk2 V c 3 t) (iblk2 V c 2 t) (iblk2 V c 4 t) (iblk2 V c 5 t) (iblk2 V c 1 t) (ix2 p q)
      = outArr V c (((cfg2.win 6).blk t).view.emb (ix2 p q))
  have e0 : win2_6.index t (0 : Fin 2) = t.val := (rowIndex_facts t).2.2.2.2.1
  have e1 : win2_6.index t (1 : Fin 2) = 0 := (rowIndex_facts t).2.2.2.2.2
  have ht : t.val < 50 := lt_of_lt_of_eq t.isLt N_2
  have hemb : ((cfg2.win 6).blk t).view.emb (ix2 p q) = ix2 (⟨t.val * 1000 + p.val, by omega⟩ : Fin 50000) q := by
    funext a
    apply Fin.ext
    match a with
    | ⟨0, _⟩ => show win2_6.index t (0 : Fin 2) * 1000 + 1 * p.val = t.val * 1000 + p.val; rw [e0]; omega
    | ⟨1, _⟩ => show win2_6.index t (1 : Fin 2) * 128 + 1 * q.val = q.val; rw [e1]; omega
  rw [hemb, pay_apply]
  refine Eq.trans ?_ (grid_ix2 _ _ _).symm
  rw [zblk_apply V c t p q ⟨t.val * 1000 + p.val, by omega⟩ rfl, ublk_apply V c t p q ⟨t.val * 1000 + p.val, by omega⟩ rfl,
    meanblk_apply, varblk_apply, scaleblk_apply, shiftblk_apply]

end Contents

/-- An entry of the output is in point `t`'s block when each coordinate is in the block's range on its axis. -/
theorem mem_blk (t : Fin cfg2.N) (i : S50000x128.Idx) :
    i ∈ ((cfg2.win 6).blk t).view.set ↔ ∀ a : Fin 2, win2_6.index t a * S1000x128.size a ≤ (i a).val
      ∧ (i a).val < win2_6.index t a * S1000x128.size a + S1000x128.size a := by
  show i ∈ ((View.whole main_v63).slice (win2_6.rect t)).set ↔ _
  rw [View.set_slice_whole, Rect.mem_set_unit]
  exact Iff.rfl

/-- After the third kernel its output array is the layer's output, entry by entry, from what the kernel found in its
    six input arrays. -/
theorem out_eq (c : Dev nD) :
    (W7 m ρ c (Proc.devRef .tc main_v63) : NodeFeat.Idx → EReal)
      = grid fun p q => applyOf
          ((W6 m ρ c (Proc.devRef .tc main_v53) : NodeFeat.Idx → EReal) (ix2 p q))
          ((W6 m ρ c (Proc.devRef .tc main_arg5) : NodeFeat.Idx → EReal) (ix2 p q))
          ((W6 m ρ c (Proc.devRef .tc main_v56) : FeatRow.Idx → EReal) (ix2 0 q))
          ((W6 m ρ c (Proc.devRef .tc main_v60) : FeatRow.Idx → EReal) (ix2 0 q))
          ((W6 m ρ c (Proc.devRef .tc main_v61) : FeatRow.Idx → EReal) (ix2 0 q))
          ((W6 m ρ c (Proc.devRef .tc main_v62) : FeatRow.Idx → EReal) (ix2 0 q)) := by
  refine (W7_arr m ρ c 6).trans ?_
  refine (dat2 (V6 m ρ) c).arrAt_eq_of_cover 6 (outArr (V6 m ρ) c) (fun t _ => flushed_eq (V6 m ρ) c t) fun i => ?_
  have hi0 : (i 0).val < 50000 := (i 0).isLt
  have hi1 : (i 1).val < 128 := (i 1).isLt
  have ht : (i 0).val / 1000 < cfg2.N := by rw [show cfg2.N = 50 from N_2]; omega
  have e0 : win2_6.index ⟨(i 0).val / 1000, ht⟩ (0 : Fin 2) = (i 0).val / 1000 := (rowIndex_facts ⟨(i 0).val / 1000, ht⟩).2.2.2.2.1
  have e1 : win2_6.index ⟨(i 0).val / 1000, ht⟩ (1 : Fin 2) = 0 := (rowIndex_facts ⟨(i 0).val / 1000, ht⟩).2.2.2.2.2
  refine ⟨⟨(i 0).val / 1000, ht⟩, flush2_6 _, ?_⟩
  rw [mem_blk]
  intro a
  match a with
  | ⟨0, _⟩ =>
    show win2_6.index ⟨(i 0).val / 1000, ht⟩ (0 : Fin 2) * 1000 ≤ (i 0).val
      ∧ (i 0).val < win2_6.index ⟨(i 0).val / 1000, ht⟩ (0 : Fin 2) * 1000 + 1000
    rw [e0]; omega
  | ⟨1, _⟩ =>
    show win2_6.index ⟨(i 0).val / 1000, ht⟩ (1 : Fin 2) * 128 ≤ (i 1).val
      ∧ (i 1).val < win2_6.index ⟨(i 0).val / 1000, ht⟩ (1 : Fin 2) * 128 + 128
    rw [e1]; omega

end Cert.KernelIdeal.Reg2

end
-- ==== Proof.KernelValue.lean ====
/-
  The kernel program's result from its arguments.

  The three kernels and the host operations between them, read one after the other: the first kernel's output is the
  feature–weight product; the host's graph convolution makes the pre-activation `z` from it; the second kernel sums
  `relu z` and its square over the nodes; the host turns the sums into the mean and the variance (mean of squares minus
  squared mean); the third kernel normalises, scales, shifts and applies dropout.
-/
import proofs.«178980_j75720273428864_1_alg».proof.Proof.Gen.KernelIdeal.Frame
import proofs.«178980_j75720273428864_1_alg».proof.Proof.Spec
import proofs.«178980_j75720273428864_1_alg».proof.Proof.KReg0
import proofs.«178980_j75720273428864_1_alg».proof.Proof.KHost1
import proofs.«178980_j75720273428864_1_alg».proof.Proof.KReg1
import proofs.«178980_j75720273428864_1_alg».proof.Proof.KHost2
import proofs.«178980_j75720273428864_1_alg».proof.Proof.KReg2
import proofs.«178980_j75720273428864_1_alg».proof.Proof.ConvChain
set_option maxRecDepth 16384

noncomputable section

open scoped BigOperators

namespace Cert.KernelIdeal.Whole

open Cert.KernelIdeal Cert.KernelIdeal.Gen Cert.GcnNorm
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The pre-activation the kernel program computes from its arguments. -/
def preActOf (c : Dev nD) : NodeFeat.Idx → EReal :=
  Conv.preAct (F := Ideal)
    (grid (matProd (m ((c.tc : Thread nD τ).loc main_arg0)) (m ((c.tc : Thread nD τ).loc main_arg1))))
    (m ((c.tc : Thread nD τ).loc main_arg2)) (m ((c.tc : Thread nD τ).loc main_arg6))

/-- What the second kernel finds in its input array is that pre-activation. -/
theorem entry_preAct (c : Dev nD) : (W4 m ρ c (Proc.devRef .tc main_v53) : NodeFeat.Idx → EReal) = preActOf m c := by
  rw [Host1.preAct_eq m ρ c, Reg0.xw_eq m ρ c]
  rfl

/-- The kernel program's result: the layer's output with the variance as the mean of squares minus the squared
    mean. -/
theorem result_eq (c : Dev nD) :
    (W7 m ρ c (Proc.devRef .tc main_v63) : NodeFeat.Idx → EReal)
      = outOf (preActOf m c) (m ((c.tc : Thread nD τ).loc main_arg5)) (meanOf (preActOf m c))
          (varOfSquares (preActOf m c)) (m ((c.tc : Thread nD τ).loc main_arg3)) (m ((c.tc : Thread nD τ).loc main_arg4)) := by
  rw [Reg2.out_eq m ρ c]
  unfold outOf
  refine congrArg grid (funext fun p => funext fun q => ?_)
  rw [Host2.var_eq m ρ c, Host2.mean_eq m ρ c, Host2.gamma_eq m ρ c, Host2.beta_eq m ρ c, Host2.preAct_kept m ρ c,
    Host2.draws_kept m ρ c, Reg1.sum_eq m ρ c, Reg1.sumsq_eq m ρ c, entry_preAct m ρ c]
  rfl

end Cert.KernelIdeal.Whole

end
-- ==== Proof.RefValue.lean ====
/-
  The reference's result as the layer's output, entry by entry.

  The reference computes the feature–weight product by one matrix product, the pre-activation by the graph
  convolution of ConvChain.lean, the batch mean as the column sum of `relu z` over the node count, the variance as the
  mean of the squared deviations, and then normalises, scales, shifts and applies dropout entry by entry.
-/
import proofs.«178980_j75720273428864_1_alg».proof.Proof.RefRead
import proofs.«178980_j75720273428864_1_alg».proof.Proof.Spec
import proofs.«178980_j75720273428864_1_alg».proof.Proof.ConvChain
import proofs.«178980_j75720273428864_1_alg».proof.Proof.LibPlainDot

set_option maxRecDepth 16384

noncomputable section

open scoped BigOperators

namespace Cert.ReferenceIdeal.RefValue

open Cert.ReferenceIdeal Cert.ReferenceIdeal.ReadP Cert.GcnNorm
open Idealize.ShloMosaic Idealize.ShloMosaic.TcCoe Idealize.ShloMosaic.ValueIdx

/-- The reference's matrix product, entry by entry. -/
theorem xw_eq (x0 : FVec Ideal S50000x128 .f32) (x1 : FVec Ideal S128x128 .f32) :
    (val_main_v7 (F := Ideal) x0 x1 : NodeFeat.Idx → EReal) = grid (matProd x0 x1) := by
  funext i
  obtain ⟨p, q, rfl⟩ : ∃ (p : Fin 50000) (q : Fin 128), i = ix2 p q := ⟨i 0, i 1, eq_ix2 i⟩
  rw [grid_ix2]
  unfold matProd
  rw [val_main_v7_apply]
  refine Finset.sum_congr rfl fun k _ => ?_
  have el : lidx_main_v7 (ix2 p q) k = ix2 p k :=
    funext fun a => Fin.ext (by match a with | ⟨0, _⟩ => rfl | ⟨1, _⟩ => rfl)
  have er : ridx_main_v7 (ix2 p q) k = ix2 k q :=
    funext fun a => Fin.ext (by match a with | ⟨0, _⟩ => rfl | ⟨1, _⟩ => rfl)
  rw [el, er]

/-- Over any float family the reference's pre-activation and the graph convolution of its matrix product are the same
    operations in the same order on the same operands: the edge list's two rows with the self-loops appended, the
    wrapped node numbers, the degree, the node weight, the message scale, the messages, their sum into the target
    rows, and the bias on every row.  The two programs' shape records agree field by field and their side conditions
    are propositions, so the two terms are one. -/
theorem preAct_eq_gen {F : FTy → Type} [FloatOps F] (x0 : FVec F S50000x128 .f32) (x1 : FVec F S128x128 .f32)
    (x2 : FVec F S128 .f32) (x6 : IVec S2x600000 32) :
    val_main_v53 (F := F) x0 x1 x2 x6
      = Cert.KernelIdeal.Conv.preAct (F := F) (val_main_v7 (F := F) x0 x1) x2 x6 := by
  rfl

/-- The reference's pre-activation is the graph convolution of its matrix product. -/
theorem preAct_eq (x0 : FVec Ideal S50000x128 .f32) (x1 : FVec Ideal S128x128 .f32) (x2 : FVec Ideal S128 .f32)
    (x6 : IVec S2x600000 32) :
    val_main_v53 (F := Ideal) x0 x1 x2 x6
      = Cert.KernelIdeal.Conv.preAct (F := Ideal) (val_main_v7 (F := Ideal) x0 x1) x2 x6 := by
  exact preAct_eq_gen x0 x1 x2 x6

/-- The reference's ReLU stage at an entry: the larger of the pre-activation and the zero word. -/
theorem relu_at (x0 : FVec Ideal S50000x128 .f32) (x1 : FVec Ideal S128x128 .f32) (x2 : FVec Ideal S128 .f32)
    (x6 : IVec S2x600000 32) (p : Fin 50000) (q : Fin 128) :
    val_main_v54 (F := Ideal) x0 x1 x2 x6 (ix2 p q) = relu (val_main_v53 (F := Ideal) x0 x1 x2 x6) p q := by
  rw [val_main_v54_apply, val_main_call1_v0_apply, val_main_call1_cst_apply]
  rfl

/-- The reference's mean stage at a feature: the column sum of the ReLU stage (from the zero word) over the node
    count. -/
theorem mean_at (x0 : FVec Ideal S50000x128 .f32) (x1 : FVec Ideal S128x128 .f32) (x2 : FVec Ideal S128 .f32)
    (x6 : IVec S2x600000 32) (q : Fin 128) :
    val_main_v57 (F := Ideal) x0 x1 x2 x6 (ix1 q) = meanOf (val_main_v53 (F := Ideal) x0 x1 x2 x6) q := by
  rw [val_main_v57_apply, val_main_v55_apply, val_main_v56_apply, val_main_cst_13_apply, val_main_cst_12_apply]
  unfold meanOf colSum nodeCount
  simp only [Ideal.hostDivf_def, Ideal.ofBits_def, Ideal.ofBits_zero_f32, zero_add]
  refine congrArg₂ _ (Finset.sum_congr rfl fun k _ => ?_) rfl
  have e : idx_main_v55 (ix1 q) k = ix2 k q :=
    funext fun a => Fin.ext (by match a with | ⟨0, _⟩ => rfl | ⟨1, _⟩ => rfl)
  rw [e, relu_at]

/-- The reference's variance stage at a feature: the column sum of the squared deviations from the mean (from the
    zero word) over the node count. -/
theorem var_at (x0 : FVec Ideal S50000x128 .f32) (x1 : FVec Ideal S128x128 .f32) (x2 : FVec Ideal S128 .f32)
    (x6 : IVec S2x600000 32) (q : Fin 128) :
    val_main_v64 (F := Ideal) x0 x1 x2 x6 (ix1 q) = varOfDeviations (val_main_v53 (F := Ideal) x0 x1 x2 x6) q := by
  rw [val_main_v64_apply, val_main_v62_apply, val_main_v63_apply, val_main_cst_15_apply, val_main_cst_14_apply]
  unfold varOfDeviations colSum nodeCount
  simp only [Ideal.hostDivf_def, Ideal.ofBits_def, Ideal.ofBits_zero_f32, zero_add]
  refine congrArg₂ _ (Finset.sum_congr rfl fun k _ => ?_) rfl
  have e : idx_main_v62 (ix1 q) k = ix2 k q :=
    funext fun a => Fin.ext (by match a with | ⟨0, _⟩ => rfl | ⟨1, _⟩ => rfl)
  have e' : idx_main_v58 (idx_main_v59 (ix2 k q)) = ix1 q :=
    funext fun a => Fin.ext (by match a with | ⟨0, _⟩ => rfl)
  rw [e, val_main_v61_apply, val_main_v60_apply, val_main_v59_apply, val_main_v58_apply, e', mean_at, relu_at]
  rfl

/-- The reference's result from its pre-activation: the layer's output with the variance as the mean of the squared
    deviations. -/
theorem out_eq (x0 : FVec Ideal S50000x128 .f32) (x1 : FVec Ideal S128x128 .f32) (x2 x3 x4 : FVec Ideal S128 .f32)
    (x5 : FVec Ideal S50000x128 .f32) (x6 : IVec S2x600000 32) :
    (val_main_v85 (F := Ideal) x0 x1 x2 x3 x4 x5 x6 : NodeFeat.Idx → EReal)
      = outOf (val_main_v53 (F := Ideal) x0 x1 x2 x6) x5 (meanOf (val_main_v53 (F := Ideal) x0 x1 x2 x6))
          (varOfDeviations (val_main_v53 (F := Ideal) x0 x1 x2 x6)) x3 x4 := by
  funext i
  obtain ⟨p, q, rfl⟩ : ∃ (p : Fin 50000) (q : Fin 128), i = ix2 p q := ⟨i 0, i 1, eq_ix2 i⟩
  unfold outOf
  rw [grid_ix2]
  have e1 : idx_main_v77 (idx_main_v78 (ix2 p q)) = ix1 q :=
    funext fun a => Fin.ext (by match a with | ⟨0, _⟩ => rfl)
  have e2 : idx_main_v74 (idx_main_v75 (ix2 p q)) = ix1 q :=
    funext fun a => Fin.ext (by match a with | ⟨0, _⟩ => rfl)
  have e3 : idx_main_v71 (idx_main_v72 (ix2 p q)) = ix1 q :=
    funext fun a => Fin.ext (by match a with | ⟨0, _⟩ => rfl)
  have e4 : idx_main_v65 (idx_main_v66 (ix2 p q)) = ix1 q :=
    funext fun a => Fin.ext (by match a with | ⟨0, _⟩ => rfl)
  rw [val_main_v85_apply, val_main_v83_apply, val_main_v79_apply, val_main_v76_apply, val_main_v73_apply,
    val_main_v67_apply, val_main_v72_apply, val_main_v71_apply, e3, val_main_v70_apply, val_main_v69_apply,
    var_at, val_main_v68_apply, val_main_cst_16_apply,
    val_main_v66_apply, val_main_v65_apply, e4, mean_at, relu_at,
    val_main_v75_apply, val_main_v74_apply, e2, val_main_v78_apply, val_main_v77_apply, e1,
    val_main_v82_apply, val_main_v81_apply, val_main_v80_apply, val_main_cst_17_apply,
    val_main_v84_apply, val_main_cst_18_apply]
  rfl

end Cert.ReferenceIdeal.RefValue

end
-- ==== Proof.LibRealValued.lean ====
/-
  Extended reals that are real numbers.

  An extended real is REAL when it is the image of a real number, that is, neither of the two infinities. The real
  values are closed under the field operations, under maximum and minimum, under a quotient by a non-zero real and
  under finite sums. On real values the extended reals are a commutative ring, so the distributive law, which fails
  at the infinities (a negative factor times ⊤ + ⊥ is ⊤, while the sum of the two products is ⊥), holds.
-/
import Idealize.ShloMosaic.PureOps.Ideal

noncomputable section

namespace Cert.RealValued

open Idealize.ShloMosaic

/-- The extended real `a` is a real number. -/
def IsReal (a : EReal) : Prop := ∃ r : ℝ, a = (r : EReal)

theorem IsReal.coe (r : ℝ) : IsReal (r : EReal) := ⟨r, rfl⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.neg {a : EReal} (ha : IsReal a) : IsReal (-a) := by
  obtain ⟨r, rfl⟩ := ha
  exact ⟨-r, (EReal.coe_neg r).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.max {a b : EReal} (ha : IsReal a) (hb : IsReal b) : IsReal (max a b) := by
  rcases le_total a b with h | h
  · rw [max_eq_right h]; exact hb
  · rw [max_eq_left h]; exact ha

theorem IsReal.min {a b : EReal} (ha : IsReal a) (hb : IsReal b) : IsReal (min a b) := by
  rcases le_total a b with h | h
  · rw [min_eq_left h]; exact ha
  · rw [min_eq_right h]; exact hb

/-- The quotient of a real value by a non-zero real number is real: it is the product with the reciprocal. -/
theorem IsReal.div_coe {a : EReal} {y : ℝ} (hy : y ≠ 0) (ha : IsReal a) : IsReal (Ideal.div a (y : EReal)) := by
  rw [Ideal.div_coe hy]
  exact ha.mul ⟨_, rfl⟩

/-- A finite sum of real values is real. -/
theorem IsReal.sum {ι : Type*} (s : Finset ι) (f : ι → EReal) : (∀ i ∈ s, IsReal (f i)) → IsReal (∑ i ∈ s, f i) := by
  classical
  refine Finset.induction_on s (fun _ => ⟨0, by simp⟩) ?_
  intro a s ha ih h
  rw [Finset.sum_insert ha]
  exact (h a (Finset.mem_insert_self a s)).add (ih fun i hi => h i (Finset.mem_insert_of_mem hi))

/-- On real values: `(-c) · d + c · p = c · (p - d)`. -/
theorem neg_mul_add_mul_eq_mul_sub {c p d : EReal} (hc : IsReal c) (hp : IsReal p) (hd : IsReal d) :
    -c * d + c * p = c * (p - d) := by
  obtain ⟨c, rfl⟩ := hc
  obtain ⟨p, rfl⟩ := hp
  obtain ⟨d, rfl⟩ := hd
  rw [← EReal.coe_neg, ← EReal.coe_mul, ← EReal.coe_mul, ← EReal.coe_add, ← EReal.coe_sub, ← EReal.coe_mul]
  congr 1
  ring

end Cert.RealValued

end
-- ==== Proof.RealArr.lean ====
/-
  Arrays of extended reals all of whose entries are real numbers.
-/
import proofs.«178980_j75720273428864_1_alg».proof.Proof.LibRealValued

noncomputable section

namespace Cert.GcnNorm

open Idealize.ShloMosaic Cert.RealValued

/-- Every entry of the array is a real number. -/
def RealArr {s : Shape} (f : s.Idx → EReal) : Prop := ∀ i, IsReal (f i)

end Cert.GcnNorm

end
-- ==== Proof.RealChain.lean ====
/-
  The graph convolution of real inputs is real.

  Every step of the convolution keeps real values real: a degree is a finite sum of ones; a node's weight is the
  reciprocal square root of a real number that is at least one, or zero; a gathered entry is an entry of the gathered
  array; products and finite sums of real values are real.  So the pre-activation has only real entries when the
  feature–weight product and the bias do, and that product has only real entries when features and weights do.
-/
import proofs.«178980_j75720273428864_1_alg».proof.Proof.ConvChain
import proofs.«178980_j75720273428864_1_alg».proof.Proof.RealArr
import proofs.«178980_j75720273428864_1_alg».proof.Proof.Spec
import Idealize.ShloMosaic.PureOps.Ideal.Laws
import Idealize.ShloMosaic.Lib.IdealHost

noncomputable section

open scoped BigOperators

namespace Cert.KernelIdeal.Conv

open Cert.KernelIdeal Cert.GcnNorm Cert.RealValued Idealize.ShloMosaic Idealize.ShloMosaic.TcCoe Idealize.ShloMosaic.ValueIdx

/-! ### The operations one at a time -/

/-- A scatter with an addition body: every entry is the operand's entry plus a finite sum of update entries, so it is
    real when operand and updates are. -/
theorem scatterAdd_real {s si u : Shape} {w : Nat} (d : ScatterDims s si u) (x : FVec Ideal s .f32) (idx : IVec si w)
    (upd : FVec Ideal u .f32) (hx : RealArr x) (hu : RealArr upd) : RealArr (Host.scatterAdd d x idx upd) := by
  intro i
  change IsReal (Ideal.hostScatterAdd d x idx upd i)
  unfold Ideal.hostScatterAdd
  exact (hx i).add (IsReal.sum _ _ fun j _ => hu j)

/-- Every entry of a gather is an entry of the gathered array. -/
theorem gather_real {s si t : Shape} {w : Nat} (d : GatherDims s si t) (x : s.Idx → EReal) (idx : IVec si w)
    (hx : RealArr x) : RealArr (Host.gather d x idx) :=
  fun j => hx (d.operandIdx j idx)

/-- Every entry of a broadcast is an entry of the broadcast array. -/
theorem broadcastInDim_real {s t : Shape} (dims : Fin s.rank → Fin t.rank) (h : s.BroadcastsInDim t dims)
    (x : s.Idx → EReal) (hx : RealArr x) : RealArr (broadcastInDim t dims h x) := by
  intro j
  unfold broadcastInDim
  exact hx _

/-- The splat of the word `+0.0` is real: the word denotes zero. -/
theorem constant_zero_real {s : Shape} : RealArr (constant (F := Ideal) s .f32 0x00000000#32) := by
  intro i
  rw [ValueIdx.constant_apply, Ideal.ofBits_zero_f32]
  exact ⟨0, EReal.coe_zero.symm⟩

/-- The splat of the word `1.0` is real: the word denotes one. -/
theorem constant_one_real {s : Shape} : RealArr (constant (F := Ideal) s .f32 0x3F800000#32) := by
  intro i
  rw [ValueIdx.constant_apply, Ideal.ofBits_one_f32]
  exact ⟨1, EReal.coe_one.symm⟩

/-- An entrywise product of real arrays is real. -/
theorem mulf_real {s : Shape} (a b : FVec Ideal s .f32) (ha : RealArr a) (hb : RealArr b) : RealArr (mulf a b) :=
  fun i => (ha i).mul (hb i)

/-- An entrywise sum of real arrays is real. -/
theorem addf_real {s : Shape} (a b : FVec Ideal s .f32) (ha : RealArr a) (hb : RealArr b) : RealArr (addf a b) :=
  fun i => (ha i).add (hb i)

/-- A selection between two real arrays is real: each entry is an entry of one of the two. -/
theorem select_real {s : Shape} (c : IVec s 1) (a b : s.Idx → EReal) (ha : RealArr a) (hb : RealArr b) :
    RealArr (select c a b) := by
  intro i
  rw [ValueIdx.select_apply]
  unfold Scalar.select
  split
  · exact ha i
  · exact hb i

/-- The reciprocal square root of a positive real number is a real number. -/
theorem rsqrt_real_of_pos {r : ℝ} (hr : 0 < r) : IsReal (Ideal.rsqrt (r : EReal)) := by
  rw [Ideal.rsqrt_coe, if_neg (not_lt.mpr hr.le), if_neg hr.ne']
  exact ⟨_, rfl⟩

/-- The reciprocal square root of `max a 1` is real when `a` is: the argument is a real number that is at least one. -/
theorem rsqrt_max_one_real {a : EReal} (ha : IsReal a) : IsReal (Ideal.rsqrt (max a 1)) := by
  obtain ⟨r, rfl⟩ := ha
  have h : max (r : EReal) 1 = ((max r 1 : ℝ) : EReal) := by
    rw [← EReal.coe_one]
    exact (EReal.coe_strictMono.monotone.map_max).symm
  rw [h]
  exact rsqrt_real_of_pos (lt_of_lt_of_le one_pos (le_max_right r 1))

/-- Every entry of a broadcast of the splat of the word `1.0` is one. -/
theorem broadcastInDim_constant_one {s t : Shape} (dims : Fin s.rank → Fin t.rank) (h : s.BroadcastsInDim t dims)
    (i : t.Idx) : broadcastInDim t dims h (constant (F := Ideal) s .f32 0x3F800000#32) i = 1 := by
  unfold broadcastInDim
  rw [ValueIdx.constant_apply, Ideal.ofBits_one_f32]

/-- The entrywise reciprocal square root of the entrywise maximum of a real array and the constant one is real. -/
theorem rsqrt_maximumf_one_real {s : Shape} (a b : FVec Ideal s .f32) (ha : RealArr a) (hb : ∀ i, b i = 1) :
    RealArr (Host.rsqrt (maximumf a b)) := by
  intro i
  change IsReal (Ideal.rsqrt (max (a i) (b i)))
  rw [hb i]
  exact rsqrt_max_one_real (ha i)

/-! ### The convolution piece by piece -/

/-- A degree is a finite sum of ones. -/
theorem degree_real (ei : IVec S2x600000 32) : RealArr (degree (F := Ideal) ei) := by
  unfold degree
  exact scatterAdd_real _ _ _ _ (broadcastInDim_real _ _ _ constant_zero_real)
    (broadcastInDim_real _ _ _ constant_one_real)

/-- A node's weight is the reciprocal square root of a real number that is at least one, or zero. -/
theorem nodeWeight_real (ei : IVec S2x600000 32) : RealArr (nodeWeight (F := Ideal) ei) := by
  unfold nodeWeight
  refine select_real _ _ _ ?_ (broadcastInDim_real _ _ _ constant_zero_real)
  exact rsqrt_maximumf_one_real _ _ (degree_real ei) (broadcastInDim_constant_one _ _)

/-- A message's scale is a product of two node weights. -/
theorem edgeScale_real (ei : IVec S2x600000 32) : RealArr (edgeScale (F := Ideal) ei) := by
  unfold edgeScale
  exact mulf_real _ _ (gather_real _ _ _ (nodeWeight_real ei)) (gather_real _ _ _ (nodeWeight_real ei))

/-- A message entry is an entry of the feature–weight product times the message's scale. -/
theorem messages_real (xw : FVec Ideal S50000x128 .f32) (ei : IVec S2x600000 32) (hxw : RealArr xw) :
    RealArr (messages (F := Ideal) xw ei) := by
  unfold messages
  exact mulf_real _ _ (gather_real _ _ _ hxw)
    (broadcastInDim_real _ _ _ (broadcastInDim_real _ _ _ (edgeScale_real ei)))

/-- The pre-activation is real when the feature–weight product and the bias are. -/
theorem preAct_real (xw : FVec Ideal S50000x128 .f32) (bias : FVec Ideal S128 .f32) (ei : IVec S2x600000 32)
    (hxw : RealArr xw) (hb : RealArr bias) : RealArr (preAct (F := Ideal) xw bias ei) := by
  unfold preAct
  exact addf_real _ _
    (scatterAdd_real _ _ _ _ (broadcastInDim_real _ _ _ constant_zero_real) (messages_real xw ei hxw))
    (broadcastInDim_real _ _ _ (broadcastInDim_real _ _ _ hb))

/-- The feature–weight product is real when features and weights are. -/
theorem matProd_real (x : NodeFeat.Idx → EReal) (w : Weights.Idx → EReal) (hx : RealArr x) (hw : RealArr w) :
    RealArr (grid (matProd x w)) := by
  intro i
  unfold grid matProd
  exact IsReal.sum _ _ fun k _ => (hx _).mul (hw _)

end Cert.KernelIdeal.Conv

end
-- ==== Proof.PreFinite.lean ====
/-
  The precondition read: every entry of the node features, of the weights and of the bias is a real number.
-/
import proofs.«178980_j75720273428864_1_alg».proof.Defs
import proofs.«178980_j75720273428864_1_alg».proof.Proof.Gen.Pre_finite_inputs
import proofs.«178980_j75720273428864_1_alg».proof.Proof.Gen.KernelIdeal
import proofs.«178980_j75720273428864_1_alg».proof.Proof.RealArr
import Idealize.ShloMosaic.Lib.ReduceAll

noncomputable section

namespace Cert.KernelIdeal.PreRead

open Cert.KernelIdeal Cert.GcnNorm Cert.RealValued Idealize.ShloMosaic Idealize.ShloMosaic.TcCoe Idealize.SL.Sem

/-- The shape with no axes has one index. -/
instance : Subsingleton Cert.Pre_finite_inputs.S_.Idx := ⟨fun a b => funext fun d => d.elim0⟩

/-- An extended real whose absolute value is below `+∞` is a real number: at either infinity the absolute value is
    `⊤`, which is not below `⊤`. -/
theorem isReal_of_abs_lt_inf (x : EReal)
    (h : FloatOps.cmpf (F := Ideal) (φ := .f32) .olt (FloatOps.hostAbsf x) (Ideal.ofBits .f32 0x7F800000#32) = 1#1) :
    IsReal x := by
  have htop : Ideal.ofBits .f32 0x7F800000#32 = ⊤ := by simp [Ideal.ofBits, Ideal.ieee]
  rw [htop] at h
  change Ideal.cmp .olt (max x (-x)) ⊤ = 1#1 at h
  unfold Ideal.cmp at h
  induction x using EReal.rec with
  | bot => simp at h
  | coe r => exact ⟨r, rfl⟩
  | top => simp at h

/-- When the conjunction over all entries of `|x| < +∞` is one, every entry of `x` is real. -/
theorem realArr_of_all_abs_lt_inf {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
        (cmpf .olt (Host.absf x)
          (broadcastInDim s ![] hb (constant (F := Ideal) Cert.Pre_finite_inputs.S_ .f32 0x7F800000#32)))
        (constantI Cert.Pre_finite_inputs.S_ 1 1#1) hr hu j = 1#1) : RealArr x := by
  intro i
  exact isReal_of_abs_lt_inf (x i) (Host.reduce_andi_all _ _ hr hu j e i)

/-- A conjunction of six bits, nested to the left, that is one has its first three bits one. -/
theorem first_three_of_and {a b c d e f : BitVec 1}
    (h : IntOp.andi (IntOp.andi (IntOp.andi (IntOp.andi (IntOp.andi a b) c) d) e) f = 1#1) :
    a = 1#1 ∧ b = 1#1 ∧ c = 1#1 := by
  obtain ⟨h, -⟩ := IntOp.andi_eq_one.1 h
  obtain ⟨h, -⟩ := IntOp.andi_eq_one.1 h
  obtain ⟨h, -⟩ := IntOp.andi_eq_one.1 h
  obtain ⟨h, hc⟩ := IntOp.andi_eq_one.1 h
  obtain ⟨ha, hb⟩ := IntOp.andi_eq_one.1 h
  exact ⟨ha, hb, hc⟩

variable (m : (ℓ : Loc nD τ sig) → Buf (Elt Ideal) ℓ)

/-- The first three tests of the precondition, read together. -/
theorem inputs_real (h : Cert.Pre_KernelIdeal m) (c : Dev nD) :
    RealArr (m ((c.tc : Thread nD τ).loc main_arg0) : S50000x128.Idx → EReal)
      ∧ RealArr (m ((c.tc : Thread nD τ).loc main_arg1) : S128x128.Idx → EReal)
      ∧ RealArr (m ((c.tc : Thread nD τ).loc main_arg2) : S128.Idx → EReal) := by
  have h0 := congrFun (h c) (fun d => d.elim0)
  unfold Cert.Pre_finite_inputs.fn Cert.Pre_finite_inputs.fn_part1 at h0
  dsimp only at h0
  obtain ⟨h1, h2, h3⟩ := first_three_of_and h0
  exact ⟨realArr_of_all_abs_lt_inf _ _ _ _ _ h1, realArr_of_all_abs_lt_inf _ _ _ _ _ h2,
    realArr_of_all_abs_lt_inf _ _ _ _ _ h3⟩

theorem features_real (h : Cert.Pre_KernelIdeal m) (c : Dev nD) :
    RealArr (m ((c.tc : Thread nD τ).loc main_arg0) : S50000x128.Idx → EReal) := by
  exact (inputs_real m h c).1

theorem weights_real (h : Cert.Pre_KernelIdeal m) (c : Dev nD) :
    RealArr (m ((c.tc : Thread nD τ).loc main_arg1) : S128x128.Idx → EReal) := by
  exact (inputs_real m h c).2.1

theorem bias_real (h : Cert.Pre_KernelIdeal m) (c : Dev nD) :
    RealArr (m ((c.tc : Thread nD τ).loc main_arg2) : S128.Idx → EReal) := by
  exact (inputs_real m h c).2.2

end Cert.KernelIdeal.PreRead

end
-- ==== Proof.VarianceLaw.lean ====
/-
  The two forms of the batch variance agree on real values.

  For real numbers r₁ … r_N with mean μ = (∑ r) / N, the mean of the squared deviations, (∑ (r − μ)²) / N, expands to
  (∑ r²) / N − 2 μ (∑ r) / N + μ², which is (∑ r²) / N − μ².  The expansion uses the distributive law, which holds on
  real values and fails at the infinities.
-/
import proofs.«178980_j75720273428864_1_alg».proof.Proof.Spec
import proofs.«178980_j75720273428864_1_alg».proof.Proof.RealArr

noncomputable section

open scoped BigOperators

namespace Cert.GcnNorm

open Idealize.ShloMosaic Idealize.ShloMosaic.ValueIdx Cert.RealValued

/-- The node count's word denotes the real number 50000. -/
theorem nodeCount_eq : nodeCount = ((50000 : ℝ) : EReal) := by
  unfold nodeCount
  simp [Ideal.ofBits, Ideal.ieee, -EReal.coe_mul]; norm_num

/-- The zero word denotes zero. -/
theorem zeroWord_eq : zeroWord = 0 := by
  unfold zeroWord
  simp [Ideal.ofBits, Ideal.ieee]

/-- A finite sum of real numbers, taken in the extended reals, is the real sum. -/
theorem coe_sum {ι : Type*} (s : Finset ι) (f : ι → ℝ) : (∑ i ∈ s, (f i : EReal)) = ((∑ i ∈ s, f i : ℝ) : EReal) := by
  classical
  refine Finset.induction_on s (by simp) ?_
  intro a s ha ih
  rw [Finset.sum_insert ha, Finset.sum_insert ha, ih, EReal.coe_add]

/-- The law over the reals: with μ the mean of N = 50000 numbers, the mean of squares minus μ² is the mean of the
    squared deviations from μ. -/
theorem real_var_forms (r : Fin 50000 → ℝ) :
    (∑ p, r p * r p) * (1 / 50000) - ((∑ p, r p) * (1 / 50000)) * ((∑ p, r p) * (1 / 50000))
      = (∑ p, (r p - (∑ p, r p) * (1 / 50000)) * (r p - (∑ p, r p) * (1 / 50000))) * (1 / 50000) := by
  have h : ∀ μ : ℝ, ∑ p, (r p - μ) * (r p - μ) = (∑ p, r p * r p) - 2 * μ * (∑ p, r p) + 50000 * (μ * μ) := by
    intro μ
    have e : ∀ p, (r p - μ) * (r p - μ) = r p * r p - 2 * μ * r p + μ * μ := fun p => by ring
    simp only [e, Finset.sum_add_distrib, Finset.sum_sub_distrib, ← Finset.mul_sum, Finset.sum_const, Finset.card_univ,
      Fintype.card_fin, nsmul_eq_mul]
    push_cast
    ring
  rw [h]
  ring

/-- On a real pre-activation the mean of squares minus the squared mean is the mean of the squared deviations. -/
theorem var_forms_agree (z : NodeFeat.Idx → EReal) (hz : RealArr z) : varOfSquares z = varOfDeviations z := by
  funext q
  have hr : ∀ p, IsReal (relu z p q) := fun p => (hz _).max ⟨0, zeroWord_eq⟩
  choose r hr using hr
  have h50 : (50000 : ℝ) ≠ 0 := by norm_num
  unfold varOfSquares varOfDeviations meanOf colSum
  simp only [hr, nodeCount_eq, Ideal.div_coe h50, coe_sum, ← EReal.coe_mul, ← EReal.coe_sub]
  exact congrArg _ (real_var_forms r)

end Cert.GcnNorm

end
-- ==== Proof.lean ====
/-
  A graph-convolution layer with ReLU, batch normalisation over the nodes and dropout: the kernel program and its
  reference compute the same function on the extended reals.

  Both programs form the feature–weight product (the kernel on the matrix unit, block of rows by block of rows; the
  reference by one matrix product) and run the same graph convolution on the host, so they share the pre-activation
  `z`.  Both take the batch mean of `relu z` per feature as the column sum over the node count.  The kernel takes the
  variance as the mean of squares minus the squared mean, the reference as the mean of the squared deviations: the two
  agree because `z` is real — finite features, weights and bias give a real matrix product, real degrees and node
  weights, real messages and a real sum —, and on real values the distributive law holds.  From there on both programs
  apply the same entrywise function of `z`, the dropout draws, the mean, the variance, the scale and the shift.
-/
import proofs.«178980_j75720273428864_1_alg».proof.Defs
import proofs.«178980_j75720273428864_1_alg».proof.Proof.Gen.Kernel
import proofs.«178980_j75720273428864_1_alg».proof.Proof.Gen.Kernel.Frame
import proofs.«178980_j75720273428864_1_alg».proof.Proof.Gen.KernelIdeal
import proofs.«178980_j75720273428864_1_alg».proof.Proof.Gen.KernelIdeal.Frame
import proofs.«178980_j75720273428864_1_alg».proof.Proof.Gen.ReferenceIdeal
import proofs.«178980_j75720273428864_1_alg».proof.Proof.Gen.Pre_finite_inputs
import proofs.«178980_j75720273428864_1_alg».proof.Proof.KernelRun
import proofs.«178980_j75720273428864_1_alg».proof.Proof.KernelValue
import proofs.«178980_j75720273428864_1_alg».proof.Proof.RefRun
import proofs.«178980_j75720273428864_1_alg».proof.Proof.RefRead
import proofs.«178980_j75720273428864_1_alg».proof.Proof.RefValue
import proofs.«178980_j75720273428864_1_alg».proof.Proof.RealChain
import proofs.«178980_j75720273428864_1_alg».proof.Proof.PreFinite
import proofs.«178980_j75720273428864_1_alg».proof.Proof.VarianceLaw
import Idealize.ShloMosaic.Adequacy
import Idealize.ShloMosaic.Init

noncomputable section

namespace Cert.Proof

open Idealize.ShloMosaic Idealize.SL.Sem Cert.GcnNorm

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.RunP.run (F := Ideal) m ρ)

/-- The two idealized programs end with the same result: the layer's output of the shared pre-activation, the two
    forms of the variance agreeing because the pre-activation is real under the precondition. -/
theorem algebraic : Cert.algebraic_KernelIdeal_ReferenceIdeal := by
  intro m ρ m' ρ' hpre hagree
  refine ⟨fun c => Cert.KernelIdeal.Gen.W7 m ρ c (Proc.devRef .tc Cert.KernelIdeal.main_v63),
    Cert.KernelIdeal.GenRun.run_result m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1, h2, h3, h4, h5, h6⟩ := hagree c
  have hreal : RealArr (Cert.KernelIdeal.Whole.preActOf m c) :=
    Cert.KernelIdeal.Conv.preAct_real _ _ _
      (Cert.KernelIdeal.Conv.matProd_real _ _ (Cert.KernelIdeal.PreRead.features_real m hpre c)
        (Cert.KernelIdeal.PreRead.weights_real m hpre c))
      (Cert.KernelIdeal.PreRead.bias_real m hpre c)
  rw [Cert.ReferenceIdeal.ReadP.val_main_v85_eq, h0, h1, h2, h3, h4, h5, h6]
  refine (Cert.ReferenceIdeal.RefValue.out_eq _ _ _ _ _ _ _).trans ?_
  rw [Cert.ReferenceIdeal.RefValue.preAct_eq, Cert.ReferenceIdeal.RefValue.xw_eq]
  refine Eq.trans ?_ (Cert.KernelIdeal.Whole.result_eq m ρ c).symm
  show outOf (Cert.KernelIdeal.Whole.preActOf m c) _ _ (varOfDeviations (Cert.KernelIdeal.Whole.preActOf m c)) _ _ = _
  rw [← var_forms_agree _ hreal]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
